-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2048x32 : Shape := ⟨2, ![2048, 32]⟩
abbrev S512x2 : Shape := ⟨2, ![512, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S50000x128 .f32) (main_arg1 : FVec F S2048x32 .f32) (main_arg2 : IVec S512x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 50000#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Kernel.lean ====
abbrev S50000x128 : Shape := ⟨2, ![50000, 128]⟩
abbrev S2048x32 : Shape := ⟨2, ![2048, 32]⟩
abbrev S512x2 : Shape := ⟨2, ![512, 2]⟩
abbrev S512x1 : Shape := ⟨2, ![512, 1]⟩
abbrev S512 : Shape := ⟨1, ![512]⟩
abbrev S_ : Shape := ⟨0, ![]⟩
abbrev S1 : Shape := ⟨1, ![1]⟩
abbrev S1x1 : Shape := ⟨2, ![1, 1]⟩
abbrev S512x128 : Shape := ⟨2, ![512, 128]⟩
abbrev S512x2x64 : Shape := ⟨3, ![512, 2, 64]⟩
abbrev S512x2x32 : Shape := ⟨3, ![512, 2, 32]⟩
abbrev S32x2048 : Shape := ⟨2, ![32, 2048]⟩
abbrev S64x2x32 : Shape := ⟨3, ![64, 2, 32]⟩
abbrev S32x256 : Shape := ⟨2, ![32, 256]⟩
abbrev S64x1x32 : Shape := ⟨3, ![64, 1, 32]⟩
abbrev S64x32 : Shape := ⟨2, ![64, 32]⟩
abbrev S1x32x256 : Shape := ⟨3, ![1, 32, 256]⟩
abbrev S64x32x1 : Shape := ⟨3, ![64, 32, 1]⟩
abbrev S64x32x256 : Shape := ⟨3, ![64, 32, 256]⟩
abbrev S64x1x256 : Shape := ⟨3, ![64, 1, 256]⟩
abbrev S64x256 : Shape := ⟨2, ![64, 256]⟩
abbrev S64 : Shape := ⟨1, ![64]⟩
abbrev S64x1 : Shape := ⟨2, ![64, 1]⟩

abbrev nBuf : Space → Nat
  | .hbm => 67
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2048x32, .f32⟩
  | .hbm, ⟨2, _⟩ => ⟨S512x2, .i32⟩
  | .hbm, ⟨3, _⟩ => ⟨S512x1, .i32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S1x1, .i32⟩
  | .hbm, ⟨20, _⟩ => ⟨S512x1, .i32⟩
  | .hbm, ⟨21, _⟩ => ⟨S512x1, .i1⟩
  | .hbm, ⟨22, _⟩ => ⟨S512x1, .i1⟩
  | .hbm, ⟨23, _⟩ => ⟨S_, .i1⟩
  | .hbm, ⟨24, _⟩ => ⟨S512, .i1⟩
  | .hbm, ⟨25, _⟩ => ⟨S512x128, .f32⟩
  | .hbm, ⟨26, _⟩ => ⟨S512x128, .i1⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1, .i32⟩
  | .hbm, ⟨39, _⟩ => ⟨S_, .i32⟩
  | .hbm, ⟨40, _⟩ => ⟨S512x1, .i32⟩
  | .hbm, ⟨41, _⟩ => ⟨S512x1, .i1⟩
  | .hbm, ⟨42, _⟩ => ⟨S1x1, .i32⟩
  | .hbm, ⟨43, _⟩ => ⟨S512x1, .i32⟩
  | .hbm, ⟨44, _⟩ => ⟨S512x1, .i1⟩
  | .hbm, ⟨45, _⟩ => ⟨S512x1, .i1⟩
  | .hbm, ⟨46, _⟩ => ⟨S_, .i1⟩
  | .hbm, ⟨47, _⟩ => ⟨S512, .i1⟩
  | .hbm, ⟨48, _⟩ => ⟨S512x128, .f32⟩
  | .hbm, ⟨49, _⟩ => ⟨S512x128, .i1⟩
  | .hbm, ⟨50, _⟩ => ⟨S_, .f32⟩
  | .hbm, ⟨51, _⟩ => ⟨S512x128, .f32⟩
  | .hbm, ⟨52, _⟩ => ⟨S512x128, .f32⟩
  | .hbm, ⟨53, _⟩ => ⟨S512x2x64, .f32⟩
  | .hbm, ⟨54, _⟩ => ⟨S512x2x32, .f32⟩
  | .hbm, ⟨55, _⟩ => ⟨S512x2x32, .f32⟩
  | .hbm, ⟨56, _⟩ => ⟨S512x2x32, .f32⟩
  | .hbm, ⟨57, _⟩ => ⟨S512x2x32, .f32⟩
  | .hbm, ⟨58, _⟩ => ⟨S512x2x32, .f32⟩
  | .hbm, ⟨59, _⟩ => ⟨S512x2x64, .f32⟩
  | .hbm, ⟨60, _⟩ => ⟨S512x2x32, .f32⟩
  | .hbm, ⟨61, _⟩ => ⟨S512x2x32, .f32⟩
  | .hbm, ⟨62, _⟩ => ⟨S512x2x32, .f32⟩
  | .hbm, ⟨63, _⟩ => ⟨S512x2x32, .f32⟩
  | .hbm, ⟨64, _⟩ => ⟨S512x2x32, .f32⟩
  | .hbm, ⟨65, _⟩ => ⟨S32x2048, .f32⟩
  | .hbm, ⟨66, _⟩ => ⟨S1x1, .f32⟩
  | .local _ .vmem, ⟨0, _⟩ => ⟨S64x2x32, .f32⟩
  | .local _ .vmem, ⟨1, _⟩ => ⟨S64x2x32, .f32⟩
  | .local _ .vmem, ⟨2, _⟩ => ⟨S64x2x32, .f32⟩
  | .local _ .vmem, ⟨3, _⟩ => ⟨S64x2x32, .f32⟩
  | .local _ .vmem, ⟨4, _⟩ => ⟨S64x2x32, .f32⟩
  | .local _ .vmem, ⟨5, _⟩ => ⟨S64x2x32, .f32⟩
  | .local _ .vmem, ⟨6, _⟩ => ⟨S64x2x32, .f32⟩
  | .local _ .vmem, ⟨7, _⟩ => ⟨S64x2x32, .f32⟩
  | .local _ .vmem, ⟨8, _⟩ => ⟨S32x256, .f32⟩
  | .local _ .vmem, ⟨9, _⟩ => ⟨S32x256, .f32⟩
  | .local _ .vmem, ⟨10, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x128_0 : S512.BroadcastsInDim S512x128 (![0] : Fin 1 → Fin S512x128.rank)
  bcast_S_S512x128 : S_.BroadcastsInDim S512x128 (![] : Fin 0 → Fin S512x128.rank)
  shapeCasts_S512x128_S512x2x64 : S512x128.ShapeCasts S512x2x64
  slices_S512x2x64_S512x2x32_0_0_0 : S512x2x64.Slices ![0, 0, 0] S512x2x32
  slices_S512x2x64_S512x2x32_0_0_32 : S512x2x64.Slices ![0, 0, 32] S512x2x32
  transposes_S2048x32_S32x2048_1_0 : S2048x32.Transposes [1, 0] S32x2048
  inb_S1x1_S1x1_0_0 : ∀ a, (![0, 0] : Fin 2 → Nat) a + S1x1.size a ≤ S1x1.size a
  h_S1x1 : 0 < S1x1.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S64x2x32_S64x2x32_0_0_0 : ∀ a, (![0, 0, 0] : Fin 3 → Nat) a + S64x2x32.size a ≤ S64x2x32.size a
  h_S64x2x32 : 0 < S64x2x32.numel
  shapeCasts_S64x2x32_S64x2x32 : S64x2x32.ShapeCasts S64x2x32
  slices_S64x2x32_o0_0_0_S64x1x32 : S64x2x32.Slices ![0, 0, 0] S64x1x32
  shapeCasts_S64x1x32_S64x32 : S64x1x32.ShapeCasts S64x32
  shapeCasts_S32x256_S1x32x256 : S32x256.ShapeCasts S1x32x256
  shapeCasts_S64x32_S64x32x1 : S64x32.ShapeCasts S64x32x1
  broadcasts_S1x32x256_S64x32x256 : S1x32x256.Broadcasts S64x32x256
  broadcasts_S64x32x1_S64x32x256 : S64x32x1.Broadcasts S64x32x256
  slices_S64x32x256_o0_0_0_S64x1x256 : S64x32x256.Slices ![0, 0, 0] S64x1x256
  shapeCasts_S64x1x256_S64x256 : S64x1x256.ShapeCasts S64x256
  slices_S64x32x256_o0_1_0_S64x1x256 : S64x32x256.Slices ![0, 1, 0] S64x1x256
  slices_S64x32x256_o0_2_0_S64x1x256 : S64x32x256.Slices ![0, 2, 0] S64x1x256
  slices_S64x32x256_o0_3_0_S64x1x256 : S64x32x256.Slices ![0, 3, 0] S64x1x256
  slices_S64x32x256_o0_4_0_S64x1x256 : S64x32x256.Slices ![0, 4, 0] S64x1x256
  slices_S64x32x256_o0_5_0_S64x1x256 : S64x32x256.Slices ![0, 5, 0] S64x1x256
  slices_S64x32x256_o0_6_0_S64x1x256 : S64x32x256.Slices ![0, 6, 0] S64x1x256
  slices_S64x32x256_o0_7_0_S64x1x256 : S64x32x256.Slices ![0, 7, 0] S64x1x256
  slices_S64x32x256_o0_8_0_S64x1x256 : S64x32x256.Slices ![0, 8, 0] S64x1x256
  slices_S64x32x256_o0_9_0_S64x1x256 : S64x32x256.Slices ![0, 9, 0] S64x1x256
  slices_S64x32x256_o0_10_0_S64x1x256 : S64x32x256.Slices ![0, 10, 0] S64x1x256
  slices_S64x32x256_o0_11_0_S64x1x256 : S64x32x256.Slices ![0, 11, 0] S64x1x256
  slices_S64x32x256_o0_12_0_S64x1x256 : S64x32x256.Slices ![0, 12, 0] S64x1x256
  slices_S64x32x256_o0_13_0_S64x1x256 : S64x32x256.Slices ![0, 13, 0] S64x1x256
  slices_S64x32x256_o0_14_0_S64x1x256 : S64x32x256.Slices ![0, 14, 0] S64x1x256
  slices_S64x32x256_o0_15_0_S64x1x256 : S64x32x256.Slices ![0, 15, 0] S64x1x256
  slices_S64x32x256_o0_16_0_S64x1x256 : S64x32x256.Slices ![0, 16, 0] S64x1x256
  slices_S64x32x256_o0_17_0_S64x1x256 : S64x32x256.Slices ![0, 17, 0] S64x1x256
  slices_S64x32x256_o0_18_0_S64x1x256 : S64x32x256.Slices ![0, 18, 0] S64x1x256
  slices_S64x32x256_o0_19_0_S64x1x256 : S64x32x256.Slices ![0, 19, 0] S64x1x256
  slices_S64x32x256_o0_20_0_S64x1x256 : S64x32x256.Slices ![0, 20, 0] S64x1x256
  slices_S64x32x256_o0_21_0_S64x1x256 : S64x32x256.Slices ![0, 21, 0] S64x1x256
  slices_S64x32x256_o0_22_0_S64x1x256 : S64x32x256.Slices ![0, 22, 0] S64x1x256
  slices_S64x32x256_o0_23_0_S64x1x256 : S64x32x256.Slices ![0, 23, 0] S64x1x256
  slices_S64x32x256_o0_24_0_S64x1x256 : S64x32x256.Slices ![0, 24, 0] S64x1x256
  slices_S64x32x256_o0_25_0_S64x1x256 : S64x32x256.Slices ![0, 25, 0] S64x1x256
  slices_S64x32x256_o0_26_0_S64x1x256 : S64x32x256.Slices ![0, 26, 0] S64x1x256
  slices_S64x32x256_o0_27_0_S64x1x256 : S64x32x256.Slices ![0, 27, 0] S64x1x256
  slices_S64x32x256_o0_28_0_S64x1x256 : S64x32x256.Slices ![0, 28, 0] S64x1x256
  slices_S64x32x256_o0_29_0_S64x1x256 : S64x32x256.Slices ![0, 29, 0] S64x1x256
  slices_S64x32x256_o0_30_0_S64x1x256 : S64x32x256.Slices ![0, 30, 0] S64x1x256
  slices_S64x32x256_o0_31_0_S64x1x256 : S64x32x256.Slices ![0, 31, 0] S64x1x256
  slices_S64x2x32_o0_1_0_S64x1x32 : S64x2x32.Slices ![0, 1, 0] S64x1x32
  reduces_S64x256_S64 : S64x256.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  gather_S50000x128_S512x1_S512x128_1_0_n_n_0_1_1128_wf : GatherDims.WF S50000x128 S512x1 S512x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x32.size a ≤ S512x2x32.size a
  hwx0_0 : ∀ i : grid0.Coords, EltTy.bits .f32 = 32 ∨ (Rect.block (s := S512x2x32) S64x2x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2x32.size a ≤ S512x2x32.size a
  hwx0_1 : ∀ i : grid0.Coords, EltTy.bits .f32 = 32 ∨ (Rect.block (s := S512x2x32) S64x2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2x32.size a ≤ S512x2x32.size a
  hwx0_2 : ∀ i : grid0.Coords, EltTy.bits .f32 = 32 ∨ (Rect.block (s := S512x2x32) S64x2x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2x32.size a ≤ S512x2x32.size a
  hwx0_3 : ∀ i : grid0.Coords, EltTy.bits .f32 = 32 ∨ (Rect.block (s := S512x2x32) S64x2x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x2048.size a
  hwx0_4 : ∀ i : grid0.Coords, EltTy.bits .f32 = 32 ∨ (Rect.block (s := S32x2048) S32x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S50000x128_S512x1_S512x128_1_0_n_n_0_1_1128 : GatherDims S50000x128 S512x1 S512x128 where
  offsetDims := [1]
  collapsedSliceDims := [0]
  operandBatchingDims := []
  startIndicesBatchingDims := []
  startIndexMap := [0]
  indexVectorDim := 1
  sliceSizes := ![1, 128]
  wf := gather_S50000x128_S512x1_S512x128_1_0_n_n_0_1_1128_wf

abbrev win0_0 : Pipeline.Window sig grid0 :=
  Pipeline.Window.ofSpec (Memref.whole main_v10) S64x2x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x2x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x2x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x2x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S32x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2048x32 : Shape := ⟨2, ![2048, 32]⟩
abbrev S512x2 : Shape := ⟨2, ![512, 2]⟩
abbrev S512x1 : Shape := ⟨2, ![512, 1]⟩
abbrev S512 : Shape := ⟨1, ![512]⟩
abbrev S_ : Shape := ⟨0, ![]⟩
abbrev S512x128 : Shape := ⟨2, ![512, 128]⟩
abbrev S512x2x64 : Shape := ⟨3, ![512, 2, 64]⟩
abbrev S512x2x32 : Shape := ⟨3, ![512, 2, 32]⟩
abbrev S1x1x2048x32 : Shape := ⟨4, ![1, 1, 2048, 32]⟩
abbrev S512x2x1x32 : Shape := ⟨4, ![512, 2, 1, 32]⟩
abbrev S512x2x2048x32 : Shape := ⟨4, ![512, 2, 2048, 32]⟩
abbrev S512x2x2048 : Shape := ⟨3, ![512, 2, 2048]⟩
abbrev S512x2048 : Shape := ⟨2, ![512, 2048]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2048x32, .f32⟩
  | .hbm, ⟨2, _⟩ => ⟨S512x2, .i32⟩
  | .hbm, ⟨3, _⟩ => ⟨S512x1, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S512x128, .f32⟩
  | .hbm, ⟨14, _⟩ => ⟨S512x2x64, .f32⟩
  | .hbm, ⟨15, _⟩ => ⟨S512x2x32, .f32⟩
  | .hbm, ⟨16, _⟩ => ⟨S512x2x32, .f32⟩
  | .hbm, ⟨17, _⟩ => ⟨S512x2x32, .f32⟩
  | .hbm, ⟨18, _⟩ => ⟨S512x2x32, .f32⟩
  | .hbm, ⟨19, _⟩ => ⟨S512x2x32, .f32⟩
  | .hbm, ⟨20, _⟩ => ⟨S512x1, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S512x128, .f32⟩
  | .hbm, ⟨31, _⟩ => ⟨S512x2x64, .f32⟩
  | .hbm, ⟨32, _⟩ => ⟨S512x2x32, .f32⟩
  | .hbm, ⟨33, _⟩ => ⟨S512x2x32, .f32⟩
  | .hbm, ⟨34, _⟩ => ⟨S512x2x32, .f32⟩
  | .hbm, ⟨35, _⟩ => ⟨S512x2x32, .f32⟩
  | .hbm, ⟨36, _⟩ => ⟨S512x2x32, .f32⟩
  | .hbm, ⟨37, _⟩ => ⟨S1x1x2048x32, .f32⟩
  | .hbm, ⟨38, _⟩ => ⟨S512x2x1x32, .f32⟩
  | .hbm, ⟨39, _⟩ => ⟨S512x2x2048x32, .f32⟩
  | .hbm, ⟨40, _⟩ => ⟨S512x2x2048x32, .f32⟩
  | .hbm, ⟨41, _⟩ => ⟨S512x2x2048x32, .f32⟩
  | .hbm, ⟨42, _⟩ => ⟨S512x2x1x32, .f32⟩
  | .hbm, ⟨43, _⟩ => ⟨S1x1x2048x32, .f32⟩
  | .hbm, ⟨44, _⟩ => ⟨S512x2x2048x32, .f32⟩
  | .hbm, ⟨45, _⟩ => ⟨S512x2x2048x32, .f32⟩
  | .hbm, ⟨46, _⟩ => ⟨S512x2x2048x32, .f32⟩
  | .hbm, ⟨47, _⟩ => ⟨S512x2x2048x32, .f32⟩
  | .hbm, ⟨48, _⟩ => ⟨S_, .f32⟩
  | .hbm, ⟨49, _⟩ => ⟨S512x2x2048, .f32⟩
  | .hbm, ⟨50, _⟩ => ⟨S512x2x2048, .f32⟩
  | .hbm, ⟨51, _⟩ => ⟨S512x2x2048, .f32⟩
  | .hbm, ⟨52, _⟩ => ⟨S_, .f32⟩
  | .hbm, ⟨53, _⟩ => ⟨S512x2x2048, .f32⟩
  | .hbm, ⟨54, _⟩ => ⟨S512x2x2048, .f32⟩
  | .hbm, ⟨55, _⟩ => ⟨S_, .f32⟩
  | .hbm, ⟨56, _⟩ => ⟨S512x2x2048, .f32⟩
  | .hbm, ⟨57, _⟩ => ⟨S512x2x2048, .f32⟩
  | .hbm, ⟨58, _⟩ => ⟨S_, .f32⟩
  | .hbm, ⟨59, _⟩ => ⟨S512x2048, .f32⟩
  | .hbm, ⟨60, _⟩ => ⟨S1x1x2048x32, .f32⟩
  | .hbm, ⟨61, _⟩ => ⟨S512x2x1x32, .f32⟩
  | .hbm, ⟨62, _⟩ => ⟨S512x2x2048x32, .f32⟩
  | .hbm, ⟨63, _⟩ => ⟨S512x2x2048x32, .f32⟩
  | .hbm, ⟨64, _⟩ => ⟨S512x2x2048x32, .f32⟩
  | .hbm, ⟨65, _⟩ => ⟨S512x2x1x32, .f32⟩
  | .hbm, ⟨66, _⟩ => ⟨S1x1x2048x32, .f32⟩
  | .hbm, ⟨67, _⟩ => ⟨S512x2x2048x32, .f32⟩
  | .hbm, ⟨68, _⟩ => ⟨S512x2x2048x32, .f32⟩
  | .hbm, ⟨69, _⟩ => ⟨S512x2x2048x32, .f32⟩
  | .hbm, ⟨70, _⟩ => ⟨S512x2x2048x32, .f32⟩
  | .hbm, ⟨71, _⟩ => ⟨S_, .f32⟩
  | .hbm, ⟨72, _⟩ => ⟨S512x2x2048, .f32⟩
  | .hbm, ⟨73, _⟩ => ⟨S512x2x2048, .f32⟩
  | .hbm, ⟨74, _⟩ => ⟨S512x2x2048, .f32⟩
  | .hbm, ⟨75, _⟩ => ⟨S_, .f32⟩
  | .hbm, ⟨76, _⟩ => ⟨S512x2x2048, .f32⟩
  | .hbm, ⟨77, _⟩ => ⟨S512x2x2048, .f32⟩
  | .hbm, ⟨78, _⟩ => ⟨S_, .f32⟩
  | .hbm, ⟨79, _⟩ => ⟨S512x2x2048, .f32⟩
  | .hbm, ⟨80, _⟩ => ⟨S512x2x2048, .f32⟩
  | .hbm, ⟨81, _⟩ => ⟨S_, .f32⟩
  | .hbm, ⟨82, _⟩ => ⟨S512x2048, .f32⟩
  | .hbm, ⟨83, _⟩ => ⟨S_, .f32⟩
  | .hbm, ⟨84, _⟩ => ⟨S512x2048, .f32⟩
  | .hbm, ⟨85, _⟩ => ⟨S512x2048, .f32⟩
  | .hbm, ⟨86, _⟩ => ⟨S_, .f32⟩
  | .hbm, ⟨87, _⟩ => ⟨S512x2048, .f32⟩
  | .hbm, ⟨88, _⟩ => ⟨S512x2048, .f32⟩
  | .hbm, ⟨89, _⟩ => ⟨S_, .f32⟩
  | .hbm, ⟨90, _⟩ => ⟨S512x2048, .f32⟩
  | .hbm, ⟨91, _⟩ => ⟨S512x2048, .f32⟩
  | .hbm, ⟨92, _⟩ => ⟨S512x2048, .f32⟩
  | .hbm, ⟨93, _⟩ => ⟨S_, .f32⟩
  | .hbm, ⟨94, _⟩ => ⟨S512x2048, .f32⟩
  | .hbm, ⟨95, _⟩ => ⟨S512x2048, .f32⟩
  | .hbm, ⟨96, _⟩ => ⟨S_, .f32⟩
  | .hbm, ⟨97, _⟩ => ⟨S512x2048, .f32⟩
  | .hbm, ⟨98, _⟩ => ⟨S512x2048, .f32⟩
  | .hbm, ⟨99, _⟩ => ⟨S_, .f32⟩
  | .hbm, ⟨100, _⟩ => ⟨S512x2048, .f32⟩
  | .hbm, ⟨101, _⟩ => ⟨S512x2048, .f32⟩
  | .hbm, ⟨102, _⟩ => ⟨S_, .f32⟩
  | .hbm, ⟨103, _⟩ => ⟨S512x2048, .f32⟩
  | .hbm, ⟨104, _⟩ => ⟨S512x2048, .f32⟩
  | .hbm, ⟨105, _⟩ => ⟨S_, .f32⟩
  | .hbm, ⟨106, _⟩ => ⟨S512x2048, .f32⟩
  | .hbm, ⟨107, _⟩ => ⟨S512x2048, .f32⟩
  | .hbm, ⟨108, _⟩ => ⟨S512x2048, .f32⟩
  | .hbm, ⟨109, _⟩ => ⟨S_, .f32⟩
  | .hbm, ⟨110, _⟩ => ⟨S512x2048, .f32⟩
  | .hbm, ⟨111, _⟩ => ⟨S512x2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S1x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_call0_cst : Ref sig .tc := ⟨.hbm, 86, rfl⟩
abbrev main_call0_v0 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_call1_cst : Ref sig .tc := ⟨.hbm, 99, rfl⟩
abbrev main_call1_v0 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_call2_cst : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]

class Facts₀ : Prop where
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  shapeCasts_S512x128_S512x2x64 : S512x128.ShapeCasts S512x2x64
  slices_S512x2x64_S512x2x32_0_0_0 : S512x2x64.Slices ![0, 0, 0] S512x2x32
  slices_S512x2x64_S512x2x32_0_0_32 : S512x2x64.Slices ![0, 0, 32] S512x2x32
  slices_S512x2_S512x1_0_1 : S512x2.Slices ![0, 1] S512x1
  bcast_S2048x32_S1x1x2048x32_2_3 : S2048x32.BroadcastsInDim S1x1x2048x32 (![2, 3] : Fin 2 → Fin S1x1x2048x32.rank)
  bcast_S512x2x32_S512x2x1x32_0_1_3 : S512x2x32.BroadcastsInDim S512x2x1x32 (![0, 1, 3] : Fin 3 → Fin S512x2x1x32.rank)
  bcast_S1x1x2048x32_S512x2x2048x32_0_1_2_3 : S1x1x2048x32.BroadcastsInDim S512x2x2048x32 (![0, 1, 2, 3] : Fin 4 → Fin S512x2x2048x32.rank)
  bcast_S512x2x1x32_S512x2x2048x32_0_1_2_3 : S512x2x1x32.BroadcastsInDim S512x2x2048x32 (![0, 1, 2, 3] : Fin 4 → Fin S512x2x2048x32.rank)
  reducesTo_S512x2x2048x32_S512x2x2048_d3 : S512x2x2048x32.ReducesTo [3] S512x2x2048
  h_S_ : 0 < S_.numel
  bcast_S_S512x2x2048 : S_.BroadcastsInDim S512x2x2048 (![] : Fin 0 → Fin S512x2x2048.rank)
  reducesTo_S512x2x2048_S512x2048_d1 : S512x2x2048.ReducesTo [1] S512x2048
  bcast_S_S512x2048 : S_.BroadcastsInDim S512x2048 (![] : Fin 0 → Fin S512x2048.rank)
  reducesTo_S512x2048_S_d0_1 : S512x2048.ReducesTo [0, 1] S_
  shapeCasts_S_S1x1 : S_.ShapeCasts S1x1
  gather_S50000x128_S512x1_S512x128_1_0_n_n_0_1_1128_wf : GatherDims.WF S50000x128 S512x1 S512x128 [1] [0] [] [0] [] 1 ![1, 128]

variable [Facts₀]

def gather_S50000x128_S512x1_S512x128_1_0_n_n_0_1_1128 : GatherDims S50000x128 S512x1 S512x128 where
  offsetDims := [1]
  collapsedSliceDims := [0]
  operandBatchingDims := []
  startIndicesBatchingDims := []
  startIndexMap := [0]
  indexVectorDim := 1
  sliceSizes := ![1, 128]
  wf := gather_S50000x128_S512x1_S512x128_1_0_n_n_0_1_1128_wf

class Facts : Prop extends Facts₀ where

variable [Facts]
-- ==== Proof.Spec.lean ====
/-
  The loss both programs compute, as one function over the extended reals.

  A class is a union of two axis-parallel boxes in dimension 32; row `b` of a gathered embedding table holds, for box
  `k`, the centre in columns `64 k … 64 k + 31` and the (signed) half-widths in columns `64 k + 32 … 64 k + 63`. The box's
  lower corner is centre − |half-width| and its upper corner centre + |half-width|. A point's margin to a box is the
  least, over the 32 coordinates, of its distance to the two faces; its soft inclusion in the class is the greater
  of the logistic of the two margins. For a pair of classes (C, D) and a point, the term is
  `1 − relu((c + d)/2 − 1/2)·w / (relu(c − 1/2)·w + ε)`; the loss is the mean of the term over 512 pairs and 2048 points,
  clamped at zero from below.
-/
import Idealize.ShloMosaic.PureOps.Ideal
import Idealize.ShloMosaic.PureOps.Ideal.Laws
import Idealize.ShloMosaic.Lib.ValueIdx

noncomputable section

open scoped BigOperators

namespace Cert.BoxLoss

open Idealize.ShloMosaic

/-- The margin of a point to a box: over the coordinates, the least distance to a face (negative outside). -/
def margin (lo hi pt : Fin 32 → EReal) : EReal :=
  (Finset.univ : Finset (Fin 32)).fold min ⊤ (fun d => min (pt d - lo d) (hi d - pt d))

/-- Soft inclusion of a point in a union of two boxes: the greater of the two boxes' logistic margins. -/
def incl (lo hi : Fin 2 → Fin 32 → EReal) (pt : Fin 32 → EReal) : EReal :=
  (Finset.univ : Finset (Fin 2)).fold max ⊥ (fun k => Ideal.logistic (margin (lo k) (hi k) pt))

/-- 1/2. -/
def half : EReal := Ideal.ofBits .f32 0x3F000000#32
/-- The Monte-Carlo weight 4/2048. -/
def weight : EReal := Ideal.ofBits .f32 0x3B000000#32
/-- The guard added to the denominator. -/
def guard : EReal := Ideal.ofBits .f32 0x3089705F#32
/-- 1. -/
def unit : EReal := Ideal.ofBits .f32 0x3F800000#32
/-- The number of (pair, point) terms, 512 · 2048. -/
def count : EReal := Ideal.ofBits .f32 0x49800000#32

/-- One (pair, point) term from the two soft inclusions. -/
def term (ci di : EReal) : EReal :=
  unit - Ideal.div (max ((ci + di) * half - half) 0 * weight) (max (ci - half) 0 * weight + guard)

/-- Lower corner of box `k` of an embedding row: centre minus |half-width|. -/
def boxLo (e : Fin 128 → EReal) (k : Fin 2) (d : Fin 32) : EReal :=
  e ⟨64 * k.val + d.val, by have := k.isLt; have := d.isLt; omega⟩
    - max (e ⟨64 * k.val + 32 + d.val, by have := k.isLt; have := d.isLt; omega⟩)
        (-(e ⟨64 * k.val + 32 + d.val, by have := k.isLt; have := d.isLt; omega⟩))

/-- Upper corner of box `k` of an embedding row: centre plus |half-width|. -/
def boxHi (e : Fin 128 → EReal) (k : Fin 2) (d : Fin 32) : EReal :=
  e ⟨64 * k.val + d.val, by have := k.isLt; have := d.isLt; omega⟩
    + max (e ⟨64 * k.val + 32 + d.val, by have := k.isLt; have := d.isLt; omega⟩)
        (-(e ⟨64 * k.val + 32 + d.val, by have := k.isLt; have := d.isLt; omega⟩))

/-- The term of one pair of embedding rows at one point. -/
def pairTerm (ec ed : Fin 128 → EReal) (pt : Fin 32 → EReal) : EReal :=
  term (incl (boxLo ec) (boxHi ec) pt) (incl (boxLo ed) (boxHi ed) pt)

/-- The sum of all terms. -/
def total (ec ed : Fin 512 → Fin 128 → EReal) (pt : Fin 2048 → Fin 32 → EReal) : EReal :=
  ∑ b : Fin 512, ∑ p : Fin 2048, pairTerm (ec b) (ed b) (pt p)

/-- The loss: the mean term, clamped at zero. -/
def loss (ec ed : Fin 512 → Fin 128 → EReal) (pt : Fin 2048 → Fin 32 → EReal) : EReal :=
  max (Ideal.div (total ec ed pt) count) 0

end Cert.BoxLoss

end
-- ==== Proof.TileLib.lean ====
/-
  Two facts about arrays of face distances.

  A `[64, 32, 256]` array (pair, coordinate, point) cut at one coordinate and flattened to `[64, 256]` is that
  coordinate's row. The least of 32 values taken one after another, from the first on, is their least: the fold of
  `min` from the top element.
-/
import Idealize.ShloMosaic.PureOps.Ideal
import Idealize.ShloMosaic.Lib.ValueIdx
import Idealize.ShloMosaic.Lib.Pipeline.Value
import Mathlib.Data.Finset.Fold
import Mathlib.Tactic.FinCases

noncomputable section

namespace Cert.TileLib

open Idealize.ShloMosaic Idealize.ShloMosaic.ValueIdx

/-- Row `r` of the middle axis of a `[64, 32, 256]` array, taken as a unit slice and flattened. -/
theorem row_apply {α : Type} (v : (⟨3, ![64, 32, 256]⟩ : Shape).Idx → α) (r : Nat) (hr : r < 32)
    (h : (⟨3, ![64, 32, 256]⟩ : Shape).Slices ![0, r, 0] ⟨3, ![64, 1, 256]⟩)
    (h' : (⟨3, ![64, 1, 256]⟩ : Shape).ShapeCasts ⟨2, ![64, 256]⟩) (b : Fin 64) (p : Fin 256) :
    shapeCast ⟨2, ![64, 256]⟩ (extractStridedSlice ⟨3, ![64, 1, 256]⟩ ![0, r, 0] v h) h' (ix2 b p) = v (ix3 b ⟨r, hr⟩ p) := by
  -- the flattening keeps the row-major position: (b, 0, p) of the slice sits where (b, p) does
  rw [shapeCast_apply _ h' (ix2 b p) (ix3 b (0 : Fin 1) p) (by
    rw [Shape.rowMajor_val_three, Shape.rowMajor_val_two]
    show (b.val * 1 + 0) * 256 + p.val = b.val * 256 + p.val
    omega)]
  -- the slice starts at (0, r, 0)
  exact extractStridedSlice_apply _ v h _ _ (fun a => by
    match a with
    | ⟨0, _⟩ => show b.val = 0 + b.val; omega
    | ⟨1, _⟩ => show r = r + 0; omega
    | ⟨2, _⟩ => show p.val = 0 + p.val; omega)

/-- The least of 32 extended reals taken one after another is their fold of `min` from the top. -/
theorem chain_min (f : Fin 32 → EReal) :
    min (min (min (min (min (min (min (min (min (min (min (min (min (min (min (min (min (min (min (min (min (min (min (min (min (min (min (min (min (min (min (f ⟨0, by omega⟩) (f ⟨1, by omega⟩)) (f ⟨2, by omega⟩)) (f ⟨3, by omega⟩)) (f ⟨4, by omega⟩)) (f ⟨5, by omega⟩)) (f ⟨6, by omega⟩)) (f ⟨7, by omega⟩)) (f ⟨8, by omega⟩)) (f ⟨9, by omega⟩)) (f ⟨10, by omega⟩)) (f ⟨11, by omega⟩)) (f ⟨12, by omega⟩)) (f ⟨13, by omega⟩)) (f ⟨14, by omega⟩)) (f ⟨15, by omega⟩)) (f ⟨16, by omega⟩)) (f ⟨17, by omega⟩)) (f ⟨18, by omega⟩)) (f ⟨19, by omega⟩)) (f ⟨20, by omega⟩)) (f ⟨21, by omega⟩)) (f ⟨22, by omega⟩)) (f ⟨23, by omega⟩)) (f ⟨24, by omega⟩)) (f ⟨25, by omega⟩)) (f ⟨26, by omega⟩)) (f ⟨27, by omega⟩)) (f ⟨28, by omega⟩)) (f ⟨29, by omega⟩)) (f ⟨30, by omega⟩)) (f ⟨31, by omega⟩)
      = (Finset.univ : Finset (Fin 32)).fold min ⊤ f := by
  apply le_antisymm
  · -- the chain is below the top and below each of its members
    refine (Finset.le_fold_min _).mpr ⟨le_top, fun d _ => ?_⟩
    fin_cases d <;> simp only [min_le_iff, le_refl, true_or, or_true]
  · -- the fold is below each member, hence below the chain
    have key : ∀ d : Fin 32, (Finset.univ : Finset (Fin 32)).fold min ⊤ f ≤ f d :=
      fun d => (Finset.fold_min_le _).mpr (Or.inr ⟨d, Finset.mem_univ d, le_rfl⟩)
    simp only [le_min_iff, key, and_self]

/-- The greater of two extended reals is their fold of `max` from the bottom. -/
theorem pair_max (g : Fin 2 → EReal) : max (g 0) (g 1) = (Finset.univ : Finset (Fin 2)).fold max ⊥ g := by
  apply le_antisymm
  · exact max_le ((Finset.le_fold_max _).mpr (Or.inr ⟨0, Finset.mem_univ _, le_rfl⟩))
      ((Finset.le_fold_max _).mpr (Or.inr ⟨1, Finset.mem_univ _, le_rfl⟩))
  · refine (Finset.fold_max_le _).mpr ⟨bot_le, fun d _ => ?_⟩
    fin_cases d
    · exact le_max_left _ _
    · exact le_max_right _ _

end Cert.TileLib

end
-- ==== Proof.TileC.lean ====
/-
  The first classes' soft inclusion as the body computes it, at a (pair, point) of the block.

  The body forms the face distances of box 0 (`[64, 32, 256]`: point minus lower corner and upper corner minus point,
  the lesser of the two), takes the least over the 32 coordinates one row after another, applies the logistic, does
  the same for box 1, and keeps the greater.
-/
import proofs.«406379_j52802327937557_3_alg».proof.Proof.Gen.KernelIdeal.Skeleton
import proofs.«406379_j52802327937557_3_alg».proof.Proof.Spec
import proofs.«406379_j52802327937557_3_alg».proof.Proof.TileLib
import Idealize.ShloMosaic.Lib.Pipeline.Value
import Idealize.ShloMosaic.Lib.ValueLayout
import Idealize.ShloMosaic.PureOps.Ideal.Laws

noncomputable section

namespace Cert.KernelIdeal.TileC

open Cert.KernelIdeal Cert.KernelIdeal.Gen Idealize.ShloMosaic Idealize.ShloMosaic.ValueIdx Cert.BoxLoss Cert.TileLib

/-- The identity shape casts of the three loaded blocks. -/
theorem pay3_eq (x4 : Vec Ideal S32x256 .f32) : k0_pay3 x4 = x4 := shapeCast_self _ _
theorem pay4_eq (x0 : Vec Ideal S64x2x32 .f32) : k0_pay4 x0 = x0 := shapeCast_self _ _
theorem pay5_eq (x1 : Vec Ideal S64x2x32 .f32) : k0_pay5 x1 = x1 := shapeCast_self _ _

/-- Box `k`'s corner column: cut from the `[64, 2, 32]` block, flattened to `[64, 32]`, given a unit last axis and
    spread over the 256 points, read at (pair, coordinate, point), is the block at (pair, `k`, coordinate). -/
theorem corner_apply {α : Type} (x : S64x2x32.Idx → α) (k : Nat) (hk : k < 2)
    (hs : S64x2x32.Slices ![0, k, 0] S64x1x32) (h1 : S64x1x32.ShapeCasts S64x32) (h2 : S64x32.ShapeCasts S64x32x1)
    (hb : S64x32x1.Broadcasts S64x32x256) (b : Fin 64) (d : Fin 32) (p : Fin 256) :
    broadcastTo S64x32x256 (shapeCast S64x32x1 (shapeCast S64x32 (extractStridedSlice S64x1x32 ![0, k, 0] x hs) h1) h2) hb
        (ix3 b d p) = x (ix3 b ⟨k, hk⟩ d) := by
  rw [broadcastTo_apply _ hb (ix3 b d p) (ix3 b d (0 : Fin 1)) (fun a => by
    match a with
    | ⟨0, _⟩ => rfl
    | ⟨1, _⟩ => rfl
    | ⟨2, _⟩ => rfl)]
  rw [shapeCast_apply _ h2 (ix3 b d (0 : Fin 1)) (ix2 b d) (by
    rw [Shape.rowMajor_val_two, Shape.rowMajor_val_three]
    show b.val * 32 + d.val = (b.val * 32 + d.val) * 1 + 0
    omega)]
  rw [shapeCast_apply _ h1 (ix2 b d) (ix3 b (0 : Fin 1) d) (by
    rw [Shape.rowMajor_val_three, Shape.rowMajor_val_two]
    show (b.val * 1 + 0) * 32 + d.val = b.val * 32 + d.val
    omega)]
  exact slice3_axis1_apply k x hs b (0 : Fin 1) d ⟨k, hk⟩ rfl

/-- The points block `[32, 256]` given a unit leading axis and spread over the 64 pairs, read at
    (pair, coordinate, point), is the block at (coordinate, point). -/
theorem points_apply {α : Type} (x : S32x256.Idx → α) (h1 : S32x256.ShapeCasts S1x32x256)
    (hb : S1x32x256.Broadcasts S64x32x256) (b : Fin 64) (d : Fin 32) (p : Fin 256) :
    broadcastTo S64x32x256 (shapeCast S1x32x256 x h1) hb (ix3 b d p) = x (ix2 d p) := by
  rw [broadcastTo_apply _ hb (ix3 b d p) (ix3 (0 : Fin 1) d p) (fun a => by
    match a with
    | ⟨0, _⟩ => rfl
    | ⟨1, _⟩ => rfl
    | ⟨2, _⟩ => rfl)]
  exact shapeCast_ab_1ab_apply x h1 0 d p

/-- The logistic of an array, read at an index. -/
theorem logistic_apply (x : FVec Ideal S64x256 .f32) (i : S64x256.Idx) :
    (logistic x i : EReal) = Ideal.logistic (x i) := rfl

/-- Box 0's face distances at (pair, coordinate, point): the lesser of point minus lower corner and upper corner
    minus point. -/
theorem faces0 (x0 x1 : Vec Ideal S64x2x32 .f32) (x4 : Vec Ideal S32x256 .f32) (b : Fin 64) (d : Fin 32) (p : Fin 256) :
    (k0_pay8 x4 x0 x1 (ix3 b d p) : EReal)
      = min ((x4 (ix2 d p) : EReal) - x0 (ix3 b 0 d)) ((x1 (ix3 b 0 d) : EReal) - x4 (ix2 d p)) := by
  unfold k0_pay8
  rw [pay3_eq, pay4_eq, pay5_eq, minimumf_apply, subf_apply, subf_apply,
    corner_apply _ 0 (by omega), corner_apply _ 0 (by omega), points_apply]
  rfl

/-- Box 1's face distances at (pair, coordinate, point). -/
theorem faces1 (x0 x1 : Vec Ideal S64x2x32 .f32) (x4 : Vec Ideal S32x256 .f32) (b : Fin 64) (d : Fin 32) (p : Fin 256) :
    (k0_pay14 (F := Ideal) x4 x0 x1 (ix3 b d p) : EReal)
      = min ((x4 (ix2 d p) : EReal) - x0 (ix3 b 1 d)) ((x1 (ix3 b 1 d) : EReal) - x4 (ix2 d p)) := by
  unfold k0_pay14
  rw [minimumf_apply, subf_apply, subf_apply,
    corner_apply _ 1 (by omega), corner_apply _ 1 (by omega), points_apply]
  rfl

/-- Box 0's value at (pair, point): the logistic of the least face distance over the 32 coordinates. -/
theorem value0 (x0 x1 : Vec Ideal S64x2x32 .f32) (x4 : Vec Ideal S32x256 .f32) (b : Fin 64) (p : Fin 256) :
    (k0_pay13 (k0_pay8 x4 x0 x1) (k0_pay11 (k0_pay8 x4 x0 x1) (k0_pay9 x4 x0 x1) (k0_pay10 x4 x0 x1))
        (k0_pay12 (k0_pay8 x4 x0 x1)) (ix2 b p) : EReal)
      = Ideal.logistic ((Finset.univ : Finset (Fin 32)).fold min ⊤
          (fun d => (k0_pay8 x4 x0 x1 (ix3 b d p) : EReal))) := by
  unfold k0_pay13 k0_pay11 k0_pay9 k0_pay10 k0_pay12
  dsimp only
  rw [logistic_apply]
  simp only [minimumf_apply]
  rw [row_apply _ 0 (by omega), row_apply _ 1 (by omega), row_apply _ 2 (by omega), row_apply _ 3 (by omega),
    row_apply _ 4 (by omega), row_apply _ 5 (by omega), row_apply _ 6 (by omega), row_apply _ 7 (by omega),
    row_apply _ 8 (by omega), row_apply _ 9 (by omega), row_apply _ 10 (by omega), row_apply _ 11 (by omega),
    row_apply _ 12 (by omega), row_apply _ 13 (by omega), row_apply _ 14 (by omega), row_apply _ 15 (by omega),
    row_apply _ 16 (by omega), row_apply _ 17 (by omega), row_apply _ 18 (by omega), row_apply _ 19 (by omega),
    row_apply _ 20 (by omega), row_apply _ 21 (by omega), row_apply _ 22 (by omega), row_apply _ 23 (by omega),
    row_apply _ 24 (by omega), row_apply _ 25 (by omega), row_apply _ 26 (by omega), row_apply _ 27 (by omega),
    row_apply _ 28 (by omega), row_apply _ 29 (by omega), row_apply _ 30 (by omega), row_apply _ 31 (by omega)]
  exact congrArg Ideal.logistic (chain_min (fun d => (k0_pay8 x4 x0 x1 (ix3 b d p) : EReal)))

/-- The last payload at (pair, point): the greater of box 0's value and the logistic of box 1's least face
    distance. -/
theorem value01 (v : FVec Ideal S64x256 .f32) (x0 x1 : Vec Ideal S64x2x32 .f32) (x4 : Vec Ideal S32x256 .f32)
    (b : Fin 64) (p : Fin 256) :
    (k0_pay19 v (k0_pay14 (F := Ideal) x4 x0 x1) (k0_pay17 (k0_pay14 (F := Ideal) x4 x0 x1) (k0_pay15 x4 x0 x1) (k0_pay16 x4 x0 x1))
        (k0_pay18 (k0_pay14 (F := Ideal) x4 x0 x1)) (ix2 b p) : EReal)
      = max (v (ix2 b p) : EReal) (Ideal.logistic ((Finset.univ : Finset (Fin 32)).fold min ⊤
          (fun d => (k0_pay14 (F := Ideal) x4 x0 x1 (ix3 b d p) : EReal)))) := by
  unfold k0_pay19 k0_pay17 k0_pay15 k0_pay16 k0_pay18
  dsimp only
  rw [maximumf_apply, logistic_apply]
  simp only [minimumf_apply]
  rw [row_apply _ 0 (by omega), row_apply _ 1 (by omega), row_apply _ 2 (by omega), row_apply _ 3 (by omega),
    row_apply _ 4 (by omega), row_apply _ 5 (by omega), row_apply _ 6 (by omega), row_apply _ 7 (by omega),
    row_apply _ 8 (by omega), row_apply _ 9 (by omega), row_apply _ 10 (by omega), row_apply _ 11 (by omega),
    row_apply _ 12 (by omega), row_apply _ 13 (by omega), row_apply _ 14 (by omega), row_apply _ 15 (by omega),
    row_apply _ 16 (by omega), row_apply _ 17 (by omega), row_apply _ 18 (by omega), row_apply _ 19 (by omega),
    row_apply _ 20 (by omega), row_apply _ 21 (by omega), row_apply _ 22 (by omega), row_apply _ 23 (by omega),
    row_apply _ 24 (by omega), row_apply _ 25 (by omega), row_apply _ 26 (by omega), row_apply _ 27 (by omega),
    row_apply _ 28 (by omega), row_apply _ 29 (by omega), row_apply _ 30 (by omega), row_apply _ 31 (by omega)]
  exact congrArg (fun t => max (v (ix2 b p) : EReal) (Ideal.logistic t))
    (chain_min (fun d => (k0_pay14 (F := Ideal) x4 x0 x1 (ix3 b d p) : EReal)))

/-- The first classes' inclusion at (pair `b`, point `p`) of the block. -/
theorem inclC_apply (x0 x1 : Vec Ideal S64x2x32 .f32) (x4 : Vec Ideal S32x256 .f32) (b : Fin 64) (p : Fin 256) :
    ((k0_pay19 (k0_pay13 (k0_pay8 x4 x0 x1) (k0_pay11 (k0_pay8 x4 x0 x1) (k0_pay9 x4 x0 x1) (k0_pay10 x4 x0 x1)) (k0_pay12 (k0_pay8 x4 x0 x1))) (k0_pay14 (k0_pay3 x4) (k0_pay4 x0) (k0_pay5 x1)) (k0_pay17 (k0_pay14 (k0_pay3 x4) (k0_pay4 x0) (k0_pay5 x1)) (k0_pay15 (k0_pay3 x4) (k0_pay4 x0) (k0_pay5 x1)) (k0_pay16 (k0_pay3 x4) (k0_pay4 x0) (k0_pay5 x1))) (k0_pay18 (k0_pay14 (k0_pay3 x4) (k0_pay4 x0) (k0_pay5 x1)))) (ix2 b p) : EReal)
      = incl (fun k d => (x0 (ix3 b k d) : EReal)) (fun k d => (x1 (ix3 b k d) : EReal)) (fun d => (x4 (ix2 d p) : EReal)) := by
  rw [pay3_eq, pay4_eq, pay5_eq, value01, value0]
  unfold incl margin
  rw [← pair_max]
  simp only [faces0, faces1]

end Cert.KernelIdeal.TileC

end
-- ==== Proof.TileD.lean ====
/-
  The second classes' soft inclusion as the body computes it, at a (pair, point) of the block.

  As for the first classes: per box the face distances, their least over the 32 coordinates one row after another, the
  logistic; the greater of the two boxes' values is taken where the term is formed.
-/
import proofs.«406379_j52802327937557_3_alg».proof.Proof.Gen.KernelIdeal.Skeleton
import proofs.«406379_j52802327937557_3_alg».proof.Proof.Spec
import proofs.«406379_j52802327937557_3_alg».proof.Proof.TileLib
import Idealize.ShloMosaic.Lib.Pipeline.Value
import Idealize.ShloMosaic.Lib.ValueLayout
import Idealize.ShloMosaic.PureOps.Ideal.Laws

noncomputable section

namespace Cert.KernelIdeal.TileD

open Cert.KernelIdeal Cert.KernelIdeal.Gen Idealize.ShloMosaic Idealize.ShloMosaic.ValueIdx Cert.BoxLoss Cert.TileLib

/-! ## The layout operations of the face-distance array, read at (pair, coordinate, point) -/

/-- The points `[32, 256]`, given a leading unit axis and repeated over the 64 pairs, read at `(b, d, p)` coordinate
    `d` of point `p`. -/
theorem pts_apply (v : FVec Ideal S32x256 .f32) (h1 : S32x256.ShapeCasts S1x32x256)
    (h2 : S1x32x256.Broadcasts S64x32x256) (b : Fin 64) (d : Fin 32) (p : Fin 256) :
    broadcastTo S64x32x256 (shapeCast S1x32x256 v h1) h2 (ix3 b d p) = v (ix2 d p) :=
  (broadcastTo_apply _ h2 (ix3 b d p) (ix3 (0 : Fin 1) d p) (fun a => by
    match a with
    | ⟨0, _⟩ => rfl
    | ⟨1, _⟩ => rfl
    | ⟨2, _⟩ => rfl)).trans (shapeCast_ab_1ab_apply v h1 0 d p)

/-- Box `k`'s corners: row `k` of the middle axis of a `[64, 2, 32]` block, flattened to `[64, 32]`, given a trailing
    unit axis and repeated over the 256 points, read at `(b, d, p)` coordinate `d` of pair `b`'s corner. -/
theorem corner_apply (v : FVec Ideal S64x2x32 .f32) (o : Nat) (k : Fin 2) (hk : k.val = o)
    (hs : S64x2x32.Slices ![0, o, 0] S64x1x32) (h1 : S64x1x32.ShapeCasts S64x32) (h2 : S64x32.ShapeCasts S64x32x1)
    (h3 : S64x32x1.Broadcasts S64x32x256) (b : Fin 64) (d : Fin 32) (p : Fin 256) :
    broadcastTo S64x32x256 (shapeCast S64x32x1 (shapeCast S64x32 (extractStridedSlice S64x1x32 ![0, o, 0] v hs) h1) h2) h3
        (ix3 b d p) = v (ix3 b k d) :=
  (broadcastTo_apply _ h3 (ix3 b d p) (ix3 b d (0 : Fin 1)) (fun a => by
    match a with
    | ⟨0, _⟩ => rfl
    | ⟨1, _⟩ => rfl
    | ⟨2, _⟩ => rfl)).trans <|
  (shapeCast_apply _ h2 (ix3 b d (0 : Fin 1)) (ix2 b d) (by
    rw [Shape.rowMajor_val_three, Shape.rowMajor_val_two]
    show b.val * 32 + d.val = (b.val * 32 + d.val) * 1 + 0
    omega)).trans <|
  (shapeCast_apply _ h1 (ix2 b d) (ix3 b (0 : Fin 1) d) (by
    rw [Shape.rowMajor_val_three, Shape.rowMajor_val_two]
    show (b.val * 1 + 0) * 32 + d.val = b.val * 32 + d.val
    omega)).trans <|
  slice3_axis1_apply o v hs b (0 : Fin 1) d k (by rw [hk]; rfl)

/-- The logistic of a vector, read at an index, is the extended reals' logistic of the element. -/
theorem logistic_apply {s : Shape} {φ : FTy} (a : FVec Ideal s φ) (i : s.Idx) : logistic a i = Ideal.logistic (a i) := rfl

/-- Row `r` of the middle axis of a `[64, 32, 256]` array, taken as a unit slice and flattened, with the row's bound
    read off the slice's own range condition. -/
theorem row_read (v : FVec Ideal S64x32x256 .f32) (r : Nat) (h : S64x32x256.Slices ![0, r, 0] S64x1x256)
    (h' : S64x1x256.ShapeCasts S64x256) (b : Fin 64) (p : Fin 256) :
    shapeCast S64x256 (extractStridedSlice S64x1x256 ![0, r, 0] v h) h' (ix2 b p)
      = v (ix3 b ⟨r, Nat.lt_of_lt_of_le (Nat.lt_succ_self r) (h.2 1)⟩ p) :=
  row_apply v r _ h h' b p

/-! ## The two boxes' face distances -/

/-- Box 0's face distances at `(b, d, p)`: the lesser of "point minus lower corner" and "upper corner minus point". -/
theorem faces0 (x2 x3 : Vec Ideal S64x2x32 .f32) (x4 : Vec Ideal S32x256 .f32) (b : Fin 64) (d : Fin 32) (p : Fin 256) :
    (k0_pay20 (k0_pay3 x4) (k0_pay6 x2) (k0_pay7 x3) (ix3 b d p) : EReal)
      = min ((x4 (ix2 d p) : EReal) - (x2 (ix3 b 0 d) : EReal)) ((x3 (ix3 b 0 d) : EReal) - (x4 (ix2 d p) : EReal)) := by
  unfold k0_pay20 k0_pay3 k0_pay6 k0_pay7
  dsimp only
  simp only [shapeCast_self, minimumf_apply, subf_apply, pts_apply, corner_apply _ 0 (0 : Fin 2) rfl]

/-- Box 1's face distances at `(b, d, p)`. -/
theorem faces1 (x2 x3 : Vec Ideal S64x2x32 .f32) (x4 : Vec Ideal S32x256 .f32) (b : Fin 64) (d : Fin 32) (p : Fin 256) :
    (k0_pay26 (k0_pay3 x4) (k0_pay6 x2) (k0_pay7 x3) (ix3 b d p) : EReal)
      = min ((x4 (ix2 d p) : EReal) - (x2 (ix3 b 1 d) : EReal)) ((x3 (ix3 b 1 d) : EReal) - (x4 (ix2 d p) : EReal)) := by
  unfold k0_pay26 k0_pay3 k0_pay6 k0_pay7
  dsimp only
  simp only [shapeCast_self, minimumf_apply, subf_apply, pts_apply, corner_apply _ 1 (1 : Fin 2) rfl]

/-! ## The least over the 32 coordinates, row after row, and the logistic -/

/-- Box 0: the 32 rows' left-nested chain of minima, taken in several stretches, then the logistic, is the logistic of the
    fold of `min` over the coordinate of the face-distance array. -/
theorem value0_fold (v6 : FVec Ideal S32x256 .f32) (v12 v14 : FVec Ideal S64x2x32 .f32) (b : Fin 64) (p : Fin 256) :
    (k0_pay25 (k0_pay20 v6 v12 v14) (k0_pay23 (k0_pay20 v6 v12 v14) (k0_pay21 v6 v12 v14) (k0_pay22 v6 v12 v14))
        (k0_pay24 (k0_pay20 v6 v12 v14)) (ix2 b p) : EReal)
      = Ideal.logistic ((Finset.univ : Finset (Fin 32)).fold min ⊤
          (fun d => (k0_pay20 v6 v12 v14 (ix3 b d p) : EReal))) := by
  unfold k0_pay25 k0_pay24 k0_pay23 k0_pay22 k0_pay21
  dsimp only
  simp only [logistic_apply, minimumf_apply, row_read]
  exact congrArg Ideal.logistic (chain_min (fun d => (k0_pay20 v6 v12 v14 (ix3 b d p) : EReal)))

/-- Box 1: the same for the second box's face-distance array. -/
theorem value1_fold (v6 : FVec Ideal S32x256 .f32) (v12 v14 : FVec Ideal S64x2x32 .f32) (b : Fin 64) (p : Fin 256) :
    (k0_pay29 (k0_pay26 v6 v12 v14) (k0_pay27 v6 v12 v14) (k0_pay28 v6 v12 v14) (ix2 b p) : EReal)
      = Ideal.logistic ((Finset.univ : Finset (Fin 32)).fold min ⊤
          (fun d => (k0_pay26 v6 v12 v14 (ix3 b d p) : EReal))) := by
  unfold k0_pay29 k0_pay28 k0_pay27
  dsimp only
  simp only [logistic_apply, minimumf_apply, row_read]
  exact congrArg Ideal.logistic (chain_min (fun d => (k0_pay26 v6 v12 v14 (ix3 b d p) : EReal)))

/-- Box 0's value at (pair `b`, point `p`): the logistic of the point's margin to the box. -/
theorem value0 (x2 x3 : Vec Ideal S64x2x32 .f32) (x4 : Vec Ideal S32x256 .f32) (b : Fin 64) (p : Fin 256) :
    (k0_pay25 (k0_pay20 (k0_pay3 x4) (k0_pay6 x2) (k0_pay7 x3)) (k0_pay23 (k0_pay20 (k0_pay3 x4) (k0_pay6 x2) (k0_pay7 x3)) (k0_pay21 (k0_pay3 x4) (k0_pay6 x2) (k0_pay7 x3)) (k0_pay22 (k0_pay3 x4) (k0_pay6 x2) (k0_pay7 x3))) (k0_pay24 (k0_pay20 (k0_pay3 x4) (k0_pay6 x2) (k0_pay7 x3))) (ix2 b p) : EReal)
      = Ideal.logistic (margin (fun d => (x2 (ix3 b 0 d) : EReal)) (fun d => (x3 (ix3 b 0 d) : EReal))
          (fun d => (x4 (ix2 d p) : EReal))) := by
  rw [value0_fold]
  unfold margin
  simp only [faces0]

/-- Box 1's value at (pair `b`, point `p`). -/
theorem value1 (x2 x3 : Vec Ideal S64x2x32 .f32) (x4 : Vec Ideal S32x256 .f32) (b : Fin 64) (p : Fin 256) :
    (k0_pay29 (k0_pay26 (k0_pay3 x4) (k0_pay6 x2) (k0_pay7 x3)) (k0_pay27 (k0_pay3 x4) (k0_pay6 x2) (k0_pay7 x3)) (k0_pay28 (k0_pay3 x4) (k0_pay6 x2) (k0_pay7 x3)) (ix2 b p) : EReal)
      = Ideal.logistic (margin (fun d => (x2 (ix3 b 1 d) : EReal)) (fun d => (x3 (ix3 b 1 d) : EReal))
          (fun d => (x4 (ix2 d p) : EReal))) := by
  rw [value1_fold]
  unfold margin
  simp only [faces1]

/-! ## The inclusion -/

/-- The second classes' inclusion at (pair `b`, point `p`) of the block: the greater of the two boxes' values. -/
theorem inclD_apply (x2 x3 : Vec Ideal S64x2x32 .f32) (x4 : Vec Ideal S32x256 .f32) (b : Fin 64) (p : Fin 256) :
    max ((k0_pay25 (k0_pay20 (k0_pay3 x4) (k0_pay6 x2) (k0_pay7 x3)) (k0_pay23 (k0_pay20 (k0_pay3 x4) (k0_pay6 x2) (k0_pay7 x3)) (k0_pay21 (k0_pay3 x4) (k0_pay6 x2) (k0_pay7 x3)) (k0_pay22 (k0_pay3 x4) (k0_pay6 x2) (k0_pay7 x3))) (k0_pay24 (k0_pay20 (k0_pay3 x4) (k0_pay6 x2) (k0_pay7 x3)))) (ix2 b p) : EReal) ((k0_pay29 (k0_pay26 (k0_pay3 x4) (k0_pay6 x2) (k0_pay7 x3)) (k0_pay27 (k0_pay3 x4) (k0_pay6 x2) (k0_pay7 x3)) (k0_pay28 (k0_pay3 x4) (k0_pay6 x2) (k0_pay7 x3))) (ix2 b p) : EReal)
      = incl (fun k d => (x2 (ix3 b k d) : EReal)) (fun k d => (x3 (ix3 b k d) : EReal)) (fun d => (x4 (ix2 d p) : EReal)) := by
  rw [value0, value1]
  unfold incl
  exact pair_max (fun k => Ideal.logistic (margin (fun d => (x2 (ix3 b k d) : EReal)) (fun d => (x3 (ix3 b k d) : EReal))
    (fun d => (x4 (ix2 d p) : EReal))))

end Cert.KernelIdeal.TileD

end
-- ==== Proof.TileValue.lean ====
/-
  What one grid point adds to the accumulator, read at the accumulator's single entry.

  At a grid point the body holds a block of 64 pairs (the four corner arrays, `[64, 2, 32]` each) and a block of 256
  points (`[32, 256]`, coordinates along the rows). It forms, for every (pair, point) of the block, the term of the
  loss, sums the terms over points and then over pairs, and adds the sum to the accumulator.
-/
import proofs.«406379_j52802327937557_3_alg».proof.Proof.Gen.KernelIdeal.Skeleton
import proofs.«406379_j52802327937557_3_alg».proof.Proof.Spec
import proofs.«406379_j52802327937557_3_alg».proof.Proof.TileC
import proofs.«406379_j52802327937557_3_alg».proof.Proof.TileD
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.BoxLoss

/-- The sum of the terms of one block of 64 pairs and 256 points. -/
def tile (lo1 hi1 lo2 hi2 : Vec Ideal S64x2x32 .f32) (pts : Vec Ideal S32x256 .f32) : EReal :=
  ∑ b : Fin 64, ∑ p : Fin 256,
    term (incl (fun k d => (lo1 (ix3 b k d) : EReal)) (fun k d => (hi1 (ix3 b k d) : EReal)) (fun d => (pts (ix2 d p) : EReal)))
      (incl (fun k d => (lo2 (ix3 b k d) : EReal)) (fun k d => (hi2 (ix3 b k d) : EReal)) (fun d => (pts (ix2 d p) : EReal)))

/-- The body's stored value: the accumulator it loaded plus the block's sum (the printed chain of payloads). -/
abbrev body (x0 x1 x2 x3 : Vec Ideal S64x2x32 .f32) (x4 : Vec Ideal S32x256 .f32) (acc : Vec Ideal S1x1 .f32) : FVec Ideal S1x1 .f32 :=
  k0_pay30 (k0_pay19 (k0_pay13 (k0_pay8 x4 x0 x1) (k0_pay11 (k0_pay8 x4 x0 x1) (k0_pay9 x4 x0 x1) (k0_pay10 x4 x0 x1)) (k0_pay12 (k0_pay8 x4 x0 x1))) (k0_pay14 (k0_pay3 x4) (k0_pay4 x0) (k0_pay5 x1)) (k0_pay17 (k0_pay14 (k0_pay3 x4) (k0_pay4 x0) (k0_pay5 x1)) (k0_pay15 (k0_pay3 x4) (k0_pay4 x0) (k0_pay5 x1)) (k0_pay16 (k0_pay3 x4) (k0_pay4 x0) (k0_pay5 x1))) (k0_pay18 (k0_pay14 (k0_pay3 x4) (k0_pay4 x0) (k0_pay5 x1)))) (k0_pay25 (k0_pay20 (k0_pay3 x4) (k0_pay6 x2) (k0_pay7 x3)) (k0_pay23 (k0_pay20 (k0_pay3 x4) (k0_pay6 x2) (k0_pay7 x3)) (k0_pay21 (k0_pay3 x4) (k0_pay6 x2) (k0_pay7 x3)) (k0_pay22 (k0_pay3 x4) (k0_pay6 x2) (k0_pay7 x3))) (k0_pay24 (k0_pay20 (k0_pay3 x4) (k0_pay6 x2) (k0_pay7 x3)))) (k0_pay29 (k0_pay26 (k0_pay3 x4) (k0_pay6 x2) (k0_pay7 x3)) (k0_pay27 (k0_pay3 x4) (k0_pay6 x2) (k0_pay7 x3)) (k0_pay28 (k0_pay3 x4) (k0_pay6 x2) (k0_pay7 x3))) acc

/-- The sum over the 256 points of a `[64, 256]` array, read at pair `b`. -/
theorem sum_points (src : FVec Ideal S64x256 .f32) (h : S64x256.Reduces [1] S64) (hφ : FKind.Formats .f32)
    (hacc : (0x00000000#32 : BitVec 32) = 0x00000000#32) (b : Fin 64) :
    (multiReduction .add [1] S64 src 0x00000000#32 h hφ hacc (ix1 b) : EReal) = ∑ p : Fin 256, (src (ix2 b p) : EReal) :=
  (Ideal.multiReduction_add_single src 0x00000000#32 h hφ hacc (ix1 b)).trans
    (Finset.sum_congr rfl fun p _ => congrArg src (funext fun a => match a with | ⟨0, _⟩ => rfl | ⟨1, _⟩ => rfl))

/-- The sum over the 64 pairs of a `[64, 1]` column, read at its single entry. -/
theorem sum_pairs (src : FVec Ideal S64x1 .f32) (h : S64x1.Reduces [0] S1) (hφ : FKind.Formats .f32)
    (hacc : (0x00000000#32 : BitVec 32) = 0x00000000#32) :
    (multiReduction .add [0] S1 src 0x00000000#32 h hφ hacc (ix1 0) : EReal) = ∑ b : Fin 64, (src (ix2 b 0) : EReal) :=
  (Ideal.multiReduction_add_single src 0x00000000#32 h hφ hacc (ix1 0)).trans
    (Finset.sum_congr rfl fun b _ => congrArg src (funext fun a => match a with | ⟨0, _⟩ => rfl | ⟨1, _⟩ => rfl))

/-- A `[64]` array given a unit last axis reads, at `(b, 0)`, the array at `b`. -/
theorem col_apply {α : Type} (x : S64.Idx → α) (h : S64.ShapeCasts S64x1) (b : Fin 64) :
    shapeCast S64x1 x h (ix2 b 0) = x (ix1 b) :=
  shapeCast_apply x h _ _ (by
    rw [Shape.rowMajor_val_one, Shape.rowMajor_val_two]
    show b.val = b.val * 1 + 0
    omega)

/-- A scalar constant's word denotes, at the extended reals, the extended real the word encodes. -/
theorem word_eq (w : BitVec FTy.f32.bits) : (Scalar.ofBits (F := Ideal) .f32 w : EReal) = Ideal.ofBits .f32 w := rfl

/-- The stored value at the accumulator's entry. -/
theorem body_apply (x0 x1 x2 x3 : Vec Ideal S64x2x32 .f32) (x4 : Vec Ideal S32x256 .f32) (acc : Vec Ideal S1x1 .f32) :
    body x0 x1 x2 x3 x4 acc (ix2 0 0) = (acc (ix2 0 0) : EReal) + tile x0 x1 x2 x3 x4 := by
  unfold body k0_pay30
  -- the loaded accumulator plus the block's sum
  rw [addf_apply, shapeCast_self]
  congr 1
  -- the sum over the 64 pairs, then over the 256 points
  rw [shapeCast_a_1a_apply _ _ (0 : Fin 1) (0 : Fin 1), sum_pairs]
  unfold tile
  refine Finset.sum_congr rfl (fun b _ => ?_)
  rw [col_apply, sum_points]
  refine Finset.sum_congr rfl (fun p _ => ?_)
  -- the term at (pair, point) from the two inclusions
  simp only [subf_apply, divf_apply, mulf_apply, addf_apply, maximumf_apply, broadcast_apply]
  rw [TileC.inclC_apply, TileD.inclD_apply]
  unfold Cert.BoxLoss.term Cert.BoxLoss.unit Cert.BoxLoss.half Cert.BoxLoss.weight Cert.BoxLoss.guard
  simp only [word_eq, Ideal.ofBits_zero_f32]

/-- The last point's second store: the mean, clamped at zero. -/
theorem final_apply (v : Vec Ideal S1x1 .f32) :
    k0_pay1 (F := Ideal) v (ix2 0 0) = max (Ideal.div (v (ix2 0 0) : EReal) count) 0 := by
  unfold k0_pay1 Cert.BoxLoss.count
  rw [maximumf_apply, divf_apply, broadcast_apply, broadcast_apply, shapeCast_self]
  simp only [word_eq, Ideal.ofBits_zero_f32]

/-- The first point's reset stores zero. -/
theorem zero_apply : k0_pay2 (F := Ideal) (ix2 0 0) = (0 : EReal) := by
  unfold k0_pay2
  rw [broadcast_apply, word_eq, Ideal.ofBits_zero_f32]

end Cert.KernelIdeal.Tile

end
-- ==== Proof.Fold.lean ====
/-
  The kernel's result is the loss.

  The grid has 64 points, point `t` handling the block of pairs `64·(t / 8) … 64·(t / 8) + 63` and the block of points
  `256·(t % 8) … 256·(t % 8) + 255`. The one-entry output stays in its staging buffer over the whole grid: point 0 zeroes
  it, every point adds its block's sum of terms, and point 63 then divides by the number of terms and clamps at
  zero. So the entry ends at `max ((∑ over the 64 points of the block sums) / count) 0`, and the 64 block sums are the
  sum over all 512 pairs and 2048 points regrouped, addition of extended reals being commutative and associative.
-/
import proofs.«406379_j52802327937557_3_alg».proof.Proof.Gen.KernelIdeal.Value
import proofs.«406379_j52802327937557_3_alg».proof.Proof.TileValue
import Idealize.ShloMosaic.Lib.Pipeline.Value

noncomputable section

open scoped BigOperators

namespace Cert.KernelIdeal.Fold

open Cert.KernelIdeal Cert.KernelIdeal.Gen Idealize.ShloMosaic Idealize.ShloMosaic.TcCoe Idealize.ShloMosaic.ValueIdx
open Cert.BoxLoss Cert.KernelIdeal.Tile

/-! ## Sums over a product of ranges -/

/-- A sum over `Fin 64` is the double sum over quotient and remainder by 8. -/
theorem sum_fin64 {M : Type*} [AddCommMonoid M] (g : Fin 64 → M) :
    ∑ n, g n = ∑ i : Fin 8, ∑ j : Fin 8, g ⟨8 * i.val + j.val, by have := i.isLt; have := j.isLt; omega⟩ := by
  rw [← Equiv.sum_comp (finProdFinEquiv (m := 8) (n := 8)) g, Fintype.sum_prod_type]
  refine Finset.sum_congr rfl fun i _ => Finset.sum_congr rfl fun j _ => congrArg g (Fin.ext ?_)
  simp [finProdFinEquiv]; omega

/-- A sum over `Fin 512` is the double sum over blocks of 64. -/
theorem sum_fin512 {M : Type*} [AddCommMonoid M] (g : Fin 512 → M) :
    ∑ n, g n = ∑ i : Fin 8, ∑ j : Fin 64, g ⟨64 * i.val + j.val, by have := i.isLt; have := j.isLt; omega⟩ := by
  rw [← Equiv.sum_comp (finProdFinEquiv (m := 8) (n := 64)) g, Fintype.sum_prod_type]
  refine Finset.sum_congr rfl fun i _ => Finset.sum_congr rfl fun j _ => congrArg g (Fin.ext ?_)
  simp [finProdFinEquiv]; omega

/-- A sum over `Fin 2048` is the double sum over blocks of 256. -/
theorem sum_fin2048 {M : Type*} [AddCommMonoid M] (g : Fin 2048 → M) :
    ∑ n, g n = ∑ i : Fin 8, ∑ j : Fin 256, g ⟨256 * i.val + j.val, by have := i.isLt; have := j.isLt; omega⟩ := by
  rw [← Equiv.sum_comp (finProdFinEquiv (m := 8) (n := 256)) g, Fintype.sum_prod_type]
  refine Finset.sum_congr rfl fun i _ => Finset.sum_congr rfl fun j _ => congrArg g (Fin.ext ?_)
  simp [finProdFinEquiv]; omega

/-- The 64 block sums are the whole sum, regrouped. -/
theorem regroup {M : Type*} [AddCommMonoid M] (f : Fin 512 → Fin 2048 → M) :
    ∑ n : Fin 64, ∑ b : Fin 64, ∑ p : Fin 256,
        f ⟨64 * (n.val / 8) + b.val, by have := n.isLt; have := b.isLt; omega⟩
          ⟨256 * (n.val % 8) + p.val, by have := n.isLt; have := p.isLt; omega⟩
      = ∑ b : Fin 512, ∑ p : Fin 2048, f b p := by
  rw [sum_fin64, sum_fin512]
  refine Finset.sum_congr rfl fun i _ => ?_
  rw [Finset.sum_comm]
  refine Finset.sum_congr rfl fun b _ => ?_
  rw [sum_fin2048]
  refine Finset.sum_congr rfl fun j _ => Finset.sum_congr rfl fun p _ => ?_
  have hi := i.isLt; have hj := j.isLt
  congr 1 <;> refine Fin.ext ?_ <;> simp only <;> omega

/-! ## The blocks of a point -/

variable (m : (ℓ : Loc nD τ sig) → Buf (Elt Ideal) ℓ)

/-- The printed index maps, decided over the grid: the corner windows take block `t / 8` of the pairs, the points'
    window block `t % 8` of the points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 2) = 0 ∧ win0_4.index t (1 : Fin 2) = t.val % 8 :=
  (by decide +kernel : ∀ t : Fin grid0.N, _)

/-- The blocks of point `t`, at their literal types. -/
abbrev blk0 (c : Dev nD) (t : Fin cfg0.N) : Vec Ideal S64x2x32 .f32 := iblk m c 0 t
abbrev blk1 (c : Dev nD) (t : Fin cfg0.N) : Vec Ideal S64x2x32 .f32 := iblk m c 1 t
abbrev blk2 (c : Dev nD) (t : Fin cfg0.N) : Vec Ideal S64x2x32 .f32 := iblk m c 2 t
abbrev blk3 (c : Dev nD) (t : Fin cfg0.N) : Vec Ideal S64x2x32 .f32 := iblk m c 3 t
abbrev blk4 (c : Dev nD) (t : Fin cfg0.N) : Vec Ideal S32x256 .f32 := iblk m c 4 t

theorem hN : cfg0.N = 64 := N_0

/-- Pair `b` of point `t`'s block of first lower corners is pair `64·(t / 8) + b` of the array. -/
theorem blk0_apply (c : Dev nD) (t : Fin cfg0.N) (b : Fin 64) (k : Fin 2) (d : Fin 32) :
    blk0 m c t (ix3 b k d) = V m c main_v10 (ix3 ⟨64 * (t.val / 8) + b.val, by have := t.isLt; have := hN; have := b.isLt; omega⟩ k d) := by
  obtain ⟨e0, e1, e2, -⟩ := idx_facts t
  show V m c main_v10 (((cfg0.win 0).blk t).view.emb (ix3 b k d)) = V m c main_v10 _
  refine congrArg _ (funext fun a => Fin.ext ?_)
  match a with
  | ⟨0, _⟩ => show win0_0.index t (0 : Fin 3) * 64 + 1 * b.val = _; rw [e0]; show _ = 64 * (t.val / 8) + b.val; omega
  | ⟨1, _⟩ => show win0_0.index t (1 : Fin 3) * 2 + 1 * k.val = _; rw [e1]; show _ = k.val; omega
  | ⟨2, _⟩ => show win0_0.index t (2 : Fin 3) * 32 + 1 * d.val = _; rw [e2]; show _ = d.val; omega

/-- Pair `b` of point `t`'s block of first upper corners is pair `64·(t / 8) + b` of the array. -/
theorem blk1_apply (c : Dev nD) (t : Fin cfg0.N) (b : Fin 64) (k : Fin 2) (d : Fin 32) :
    blk1 m c t (ix3 b k d) = V m c main_v11 (ix3 ⟨64 * (t.val / 8) + b.val, by have := t.isLt; have := hN; have := b.isLt; omega⟩ k d) := by
  obtain ⟨-, -, -, e0, e1, e2, -⟩ := idx_facts t
  show V m c main_v11 (((cfg0.win 1).blk t).view.emb (ix3 b k d)) = V m c main_v11 _
  refine congrArg _ (funext fun a => Fin.ext ?_)
  match a with
  | ⟨0, _⟩ => show win0_1.index t (0 : Fin 3) * 64 + 1 * b.val = _; rw [e0]; show _ = 64 * (t.val / 8) + b.val; omega
  | ⟨1, _⟩ => show win0_1.index t (1 : Fin 3) * 2 + 1 * k.val = _; rw [e1]; show _ = k.val; omega
  | ⟨2, _⟩ => show win0_1.index t (2 : Fin 3) * 32 + 1 * d.val = _; rw [e2]; show _ = d.val; omega

/-- Pair `b` of point `t`'s block of second lower corners is pair `64·(t / 8) + b` of the array. -/
theorem blk2_apply (c : Dev nD) (t : Fin cfg0.N) (b : Fin 64) (k : Fin 2) (d : Fin 32) :
    blk2 m c t (ix3 b k d) = V m c main_v16 (ix3 ⟨64 * (t.val / 8) + b.val, by have := t.isLt; have := hN; have := b.isLt; omega⟩ k d) := by
  obtain ⟨-, -, -, -, -, -, e0, e1, e2, -⟩ := idx_facts t
  show V m c main_v16 (((cfg0.win 2).blk t).view.emb (ix3 b k d)) = V m c main_v16 _
  refine congrArg _ (funext fun a => Fin.ext ?_)
  match a with
  | ⟨0, _⟩ => show win0_2.index t (0 : Fin 3) * 64 + 1 * b.val = _; rw [e0]; show _ = 64 * (t.val / 8) + b.val; omega
  | ⟨1, _⟩ => show win0_2.index t (1 : Fin 3) * 2 + 1 * k.val = _; rw [e1]; show _ = k.val; omega
  | ⟨2, _⟩ => show win0_2.index t (2 : Fin 3) * 32 + 1 * d.val = _; rw [e2]; show _ = d.val; omega

/-- Pair `b` of point `t`'s block of second upper corners is pair `64·(t / 8) + b` of the array. -/
theorem blk3_apply (c : Dev nD) (t : Fin cfg0.N) (b : Fin 64) (k : Fin 2) (d : Fin 32) :
    blk3 m c t (ix3 b k d) = V m c main_v17 (ix3 ⟨64 * (t.val / 8) + b.val, by have := t.isLt; have := hN; have := b.isLt; omega⟩ k d) := by
  obtain ⟨-, -, -, -, -, -, -, -, -, e0, e1, e2, -⟩ := idx_facts t
  show V m c main_v17 (((cfg0.win 3).blk t).view.emb (ix3 b k d)) = V m c main_v17 _
  refine congrArg _ (funext fun a => Fin.ext ?_)
  match a with
  | ⟨0, _⟩ => show win0_3.index t (0 : Fin 3) * 64 + 1 * b.val = _; rw [e0]; show _ = 64 * (t.val / 8) + b.val; omega
  | ⟨1, _⟩ => show win0_3.index t (1 : Fin 3) * 2 + 1 * k.val = _; rw [e1]; show _ = k.val; omega
  | ⟨2, _⟩ => show win0_3.index t (2 : Fin 3) * 32 + 1 * d.val = _; rw [e2]; show _ = d.val; omega

/-- Point `p` of point `t`'s block of transposed points is point `256·(t % 8) + p` of the array. -/
theorem blk4_apply (c : Dev nD) (t : Fin cfg0.N) (d : Fin 32) (p : Fin 256) :
    blk4 m c t (ix2 d p) = V m c main_v18 (ix2 d ⟨256 * (t.val % 8) + p.val, by have := p.isLt; omega⟩) := by
  obtain ⟨-, -, -, -, -, -, -, -, -, -, -, -, e0, e1⟩ := idx_facts t
  show V m c main_v18 (((cfg0.win 4).blk t).view.emb (ix2 d p)) = V m c main_v18 _
  refine congrArg _ (funext fun a => Fin.ext ?_)
  match a with
  | ⟨0, _⟩ => show win0_4.index t (0 : Fin 2) * 32 + 1 * d.val = _; rw [e0]; show _ = d.val; omega
  | ⟨1, _⟩ => show win0_4.index t (1 : Fin 2) * 256 + 1 * p.val = _; rw [e1]; show _ = 256 * (t.val % 8) + p.val; omega

/-! ## The fold over the grid -/

/-- The sum of terms of point `n`'s blocks. -/
def part (c : Dev nD) (n : ℕ) (h : n < cfg0.N) : EReal :=
  tile (blk0 m c ⟨n, h⟩) (blk1 m c ⟨n, h⟩) (blk2 m c ⟨n, h⟩) (blk3 m c ⟨n, h⟩) (blk4 m c ⟨n, h⟩)

theorem part_congr (c : Dev nD) (n n' : ℕ) (h : n < cfg0.N) (h' : n' < cfg0.N) (e : n = n') : part m c n h = part m c n' h' := by
  subst e; rfl

/-- What point `n`'s body stores over an accumulator `acc`: the accumulator plus the point's block sum. -/
def pointBody (c : Dev nD) (n : ℕ) (h : n < cfg0.N) (acc : Vec Ideal S1x1 .f32) : Vec Ideal S1x1 .f32 :=
  body (blk0 m c ⟨n, h⟩) (blk1 m c ⟨n, h⟩) (blk2 m c ⟨n, h⟩) (blk3 m c ⟨n, h⟩) (blk4 m c ⟨n, h⟩) acc

theorem pointBody_apply (c : Dev nD) (n : ℕ) (h : n < cfg0.N) (acc : Vec Ideal S1x1 .f32) :
    (pointBody m c n h acc (ix2 0 0) : EReal) = (acc (ix2 0 0) : EReal) + part m c n h :=
  body_apply _ _ _ _ _ _

/-- Point 0 stores zero, then the accumulator plus its block's sum. -/
theorem reset_eq (c : Dev nD) (n : ℕ) (h : n < cfg0.N) :
    Value.reset5 m c n h = pointBody m c n h (k0_pay2 (F := Ideal)) := rfl

/-- A middle point stores the accumulator plus its block's sum. -/
theorem step_mid (c : Dev nD) (n : ℕ) (h : n < cfg0.N) (acc : Vec Ideal S1x1 .f32) (h0 : ¬n % 64 = 0) (h1 : ¬n % 64 = 63) :
    Value.step5 m c n h acc = pointBody m c n h acc := by
  unfold Value.step5
  rw [if_pos ⟨h0, h1⟩]
  rfl

/-- The last point stores the mean, clamped, of the accumulator plus its block's sum. -/
theorem step_last (c : Dev nD) (n : ℕ) (h : n < cfg0.N) (acc : Vec Ideal S1x1 .f32) (h0 : ¬n % 64 = 0) (h1 : n % 64 = 63) :
    Value.step5 m c n h acc = k0_pay1 (F := Ideal) (pointBody m c n h acc) := by
  unfold Value.step5
  rw [if_neg (fun hh => hh.2 h1), if_pos ⟨h0, h1⟩]
  rfl

/-- The entry of the accumulator after point `j` of the run from point 0. -/
def accEntry (c : Dev nD) (j : ℕ) (h : 0 + j < cfg0.N) : EReal :=
  Pipeline.accAt (Value.reset5 m c) (Value.step5 m c) 0 j h (ix2 0 0)

theorem accEntry_zero (c : Dev nD) (h : 0 + 0 < cfg0.N) : accEntry m c 0 h = part m c 0 h := by
  unfold accEntry
  rw [Pipeline.accAt_zero, reset_eq, pointBody_apply, zero_apply, zero_add]

theorem accEntry_succ (c : Dev nD) (j : ℕ) (h : 0 + (j + 1) < cfg0.N) (hj : j + 1 < 63) :
    accEntry m c (j + 1) h = accEntry m c j (Nat.lt_of_succ_lt h) + part m c (0 + (j + 1)) h := by
  unfold accEntry
  rw [Pipeline.accAt_succ, step_mid m c _ _ _ (by omega) (by omega), pointBody_apply]

theorem accEntry_last (c : Dev nD) (h : 0 + (62 + 1) < cfg0.N) :
    accEntry m c (62 + 1) h = max (Ideal.div (accEntry m c 62 (Nat.lt_of_succ_lt h) + part m c (0 + (62 + 1)) h) count) 0 := by
  unfold accEntry
  rw [Pipeline.accAt_succ, step_last m c _ _ _ (by omega) (by omega), final_apply, pointBody_apply]

/-- After point `j < 63` the accumulator's entry is the sum of the block sums of points `0 … j`. -/
theorem acc_eq (c : Dev nD) (j : ℕ) : ∀ (hj : j < 63) (h : 0 + j < cfg0.N),
    accEntry m c j h = ∑ n : Fin (j + 1), part m c n.val (by have := n.isLt; have := hN; omega) := by
  induction j with
  | zero =>
    intro _ h
    rw [accEntry_zero, Fin.sum_univ_one]
    exact part_congr m c _ _ _ _ rfl
  | succ j ih =>
    intro hj h
    rw [accEntry_succ m c j h hj, ih (by omega) (Nat.lt_of_succ_lt h), Fin.sum_univ_castSucc (n := j + 1)]
    refine congrArg₂ (· + ·) (Finset.sum_congr rfl fun i _ => part_congr m c _ _ _ _ rfl) (part_congr m c _ _ _ _ (Nat.zero_add _))

/-- After the last point the entry is the mean of all 64 block sums, clamped at zero. -/
theorem fold_eq (c : Dev nD) (h : 0 + (62 + 1) < cfg0.N) :
    accEntry m c (62 + 1) h
      = max (Ideal.div (∑ n : Fin 64, part m c n.val (by have := n.isLt; have := hN; omega)) count) 0 := by
  rw [accEntry_last, acc_eq m c 62 (by omega) (Nat.lt_of_succ_lt h), Fin.sum_univ_castSucc (n := 63)]
  refine congrArg (fun x => max (Ideal.div x count) 0) ?_
  refine congrArg₂ (· + ·) (Finset.sum_congr rfl fun i _ => part_congr m c _ _ _ _ rfl) (part_congr m c _ _ _ _ (Nat.zero_add _))

/-! ## The result -/

/-- Point `n`'s block sum over the gathered rows and the points, given what the five staged arrays hold. -/
theorem part_eq (rowC rowD : Fin 512 → Fin 128 → EReal) (pt : Fin 2048 → Fin 32 → EReal) (c : Dev nD)
    (hlo1 : ∀ b k d, (V m c main_v10 (ix3 b k d) : EReal) = boxLo (rowC b) k d)
    (hhi1 : ∀ b k d, (V m c main_v11 (ix3 b k d) : EReal) = boxHi (rowC b) k d)
    (hlo2 : ∀ b k d, (V m c main_v16 (ix3 b k d) : EReal) = boxLo (rowD b) k d)
    (hhi2 : ∀ b k d, (V m c main_v17 (ix3 b k d) : EReal) = boxHi (rowD b) k d)
    (hpts : ∀ d p, (V m c main_v18 (ix2 d p) : EReal) = pt p d)
    (n : ℕ) (h : n < cfg0.N) :
    part m c n h = ∑ b : Fin 64, ∑ p : Fin 256,
      pairTerm (rowC ⟨64 * (n / 8) + b.val, by have := hN; have := b.isLt; omega⟩)
        (rowD ⟨64 * (n / 8) + b.val, by have := hN; have := b.isLt; omega⟩)
        (pt ⟨256 * (n % 8) + p.val, by have := p.isLt; omega⟩) := by
  unfold part tile
  refine Finset.sum_congr rfl fun b _ => Finset.sum_congr rfl fun p _ => ?_
  simp only [blk0_apply, blk1_apply, blk2_apply, blk3_apply, blk4_apply, hlo1, hhi1, hlo2, hhi2, hpts]
  rfl

/-- The output array's entry after the run is the accumulator's entry after the last point. -/
theorem G5_entry (c : Dev nD) (h63 : 0 + (62 + 1) < cfg0.N) : (Value.G5 m c (ix2 0 0) : EReal) = accEntry m c (62 + 1) h63 := by
  have hl : Value.loc5Of (ix2 (0 : Fin 1) (0 : Fin 1)) = ix2 0 0 := by
    funext a; match a with | ⟨0, _⟩ => rfl | ⟨1, _⟩ => rfl
  have e : ∀ (b : ℕ) (hb : b + 63 < cfg0.N), b = 0 →
      Pipeline.accAt (Value.reset5 m c) (Value.step5 m c) b 63 hb = Pipeline.accAt (Value.reset5 m c) (Value.step5 m c) 0 (62 + 1) h63 := by
    intro b hb e; subst e; rfl
  unfold Value.G5 accEntry
  rw [dif_pos (show 64 * Value.run5Of (ix2 (0 : Fin 1) (0 : Fin 1)) + 63 < cfg0.N from h63), hl, e _ _ (by decide)]

/-- THE KERNEL'S RESULT at its entry: the loss of the gathered rows and the points. -/
theorem result_apply (rowC rowD : Fin 512 → Fin 128 → EReal) (pt : Fin 2048 → Fin 32 → EReal) (c : Dev nD)
    (hlo1 : ∀ b k d, (V m c main_v10 (ix3 b k d) : EReal) = boxLo (rowC b) k d)
    (hhi1 : ∀ b k d, (V m c main_v11 (ix3 b k d) : EReal) = boxHi (rowC b) k d)
    (hlo2 : ∀ b k d, (V m c main_v16 (ix3 b k d) : EReal) = boxLo (rowD b) k d)
    (hhi2 : ∀ b k d, (V m c main_v17 (ix3 b k d) : EReal) = boxHi (rowD b) k d)
    (hpts : ∀ d p, (V m c main_v18 (ix2 d p) : EReal) = pt p d) :
    (Value.G5 m c (ix2 0 0) : EReal) = loss rowC rowD pt := by
  have h63 : 0 + (62 + 1) < cfg0.N := by rw [hN]; omega
  rw [G5_entry m c h63, fold_eq]
  unfold loss total
  refine congrArg (fun x => max (Ideal.div x count) 0) ?_
  rw [← regroup (fun b p => pairTerm (rowC b) (rowD b) (pt p))]
  exact Finset.sum_congr rfl fun n _ => part_eq m rowC rowD pt c hlo1 hhi1 hlo2 hhi2 hpts n.val _

end Cert.KernelIdeal.Fold

end
-- ==== Proof.KernelArrays.lean ====
/-
  The arrays the region finds, read at an index.

  Before the region the program gathers, for each of the two columns of the index pairs, the table's rows (an index
  below zero wrapped by the table's height first; a row whose wrapped index is outside the table replaced by a fill
  value), cuts each gathered row into two boxes' centres and half-widths, and forms the boxes' lower and upper
  corners; it also transposes the points. Under the precondition every index is a row of the table, no row is
  replaced, and the four corner arrays are the corners of the gathered rows.
-/
import proofs.«406379_j52802327937557_3_alg».proof.Defs
import proofs.«406379_j52802327937557_3_alg».proof.Proof.Gen.KernelIdeal.Frame
import proofs.«406379_j52802327937557_3_alg».proof.Proof.Gen.Pre_finite_inputs
import proofs.«406379_j52802327937557_3_alg».proof.Proof.Spec
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

noncomputable section

namespace Cert.KernelIdeal.Arrays

open Cert.KernelIdeal Cert.KernelIdeal.Gen Idealize.ShloMosaic Idealize.ShloMosaic.TcCoe Idealize.ShloMosaic.ValueIdx Cert.BoxLoss

/-- Column `0` of the index pairs as the gather takes it: one start index per pair, a negative one wrapped by 50000. -/
def rowsC (nf : IVec S512x2 32) : IVec S512x1 32 :=
  broadcastInDim S512x1 ![0] bcast_S512_S512x1_0
    (select (cmpi .slt (shapeCast S512 (extractStridedSlice S512x1 ![0, 0] nf slices_S512x2_S512x1_0_0) shapeCasts_S512x1_S512)
        (broadcastInDim S512 ![] bcast_S_S512 (constantI S_ 32 0#32)))
      (addi (shapeCast S512 (extractStridedSlice S512x1 ![0, 0] nf slices_S512x2_S512x1_0_0) shapeCasts_S512x1_S512)
        (broadcastInDim S512 ![] bcast_S_S512 (constantI S_ 32 50000#32)))
      (shapeCast S512 (extractStridedSlice S512x1 ![0, 0] nf slices_S512x2_S512x1_0_0) shapeCasts_S512x1_S512))

/-- Column `1` of the index pairs, likewise. -/
def rowsD (nf : IVec S512x2 32) : IVec S512x1 32 :=
  broadcastInDim S512x1 ![0] bcast_S512_S512x1_0
    (select (cmpi .slt (shapeCast S512 (extractStridedSlice S512x1 ![0, 1] nf slices_S512x2_S512x1_0_1) shapeCasts_S512x1_S512)
        (broadcastInDim S512 ![] bcast_S_S512 (constantI S_ 32 0#32)))
      (addi (shapeCast S512 (extractStridedSlice S512x1 ![0, 1] nf slices_S512x2_S512x1_0_1) shapeCasts_S512x1_S512)
        (broadcastInDim S512 ![] bcast_S_S512 (constantI S_ 32 50000#32)))
      (shapeCast S512 (extractStridedSlice S512x1 ![0, 1] nf slices_S512x2_S512x1_0_1) shapeCasts_S512x1_S512))

/-- The gathered rows of the first classes. -/
def embC (W : FVec Ideal S50000x128 .f32) (nf : IVec S512x2 32) : FVec Ideal S512x128 .f32 :=
  Host.gather gather_S50000x128_S512x1_S512x128_1_0_n_n_0_1_1128 W (rowsC nf)

/-- The gathered rows of the second classes. -/
def embD (W : FVec Ideal S50000x128 .f32) (nf : IVec S512x2 32) : FVec Ideal S512x128 .f32 :=
  Host.gather gather_S50000x128_S512x1_S512x128_1_0_n_n_0_1_1128 W (rowsD nf)

variable (m : (ℓ : Loc nD τ sig) → Buf (Elt Ideal) ℓ)

/-- Row `b` of the first classes' gathered rows, as the loss takes it. -/
abbrev rowC (c : Dev nD) (b : Fin 512) : Fin 128 → EReal := fun j =>
  embC (m ((c : Thread nD τ).loc main_arg0)) (m ((c : Thread nD τ).loc main_arg2)) (ix2 b j)

/-- Row `b` of the second classes' gathered rows. -/
abbrev rowD (c : Dev nD) (b : Fin 512) : Fin 128 → EReal := fun j =>
  embD (m ((c : Thread nD τ).loc main_arg0)) (m ((c : Thread nD τ).loc main_arg2)) (ix2 b j)

/-! ### Index words

An index word `w` with `0 ≤ w < 50000` as a signed number passes the three signed comparisons the take makes. -/

theorem zero_toInt : (0#32 : BitVec 32).toInt = 0 := by decide
theorem k50000_toInt : (50000#32 : BitVec 32).toInt = 50000 := by decide
theorem k49999_toInt : (49999#32 : BitVec 32).toInt = 49999 := by decide

/-- The precondition's two comparisons of one word, read back. -/
theorem word_range {w : BitVec 32} (h0 : IntOp.cmpi .sge w 0#32 = 1#1) (h1 : IntOp.cmpi .slt w 50000#32 = 1#1) :
    0 ≤ w.toInt ∧ w.toInt < 50000 := by
  have h0' : BitVec.ofBool ((0#32 : BitVec 32).sle w) = 1#1 := h0
  have h1' : BitVec.ofBool (w.slt 50000#32) = 1#1 := h1
  rw [StableHlo.Predicate.ofBool_eq_one_iff, BitVec.sle_iff_toInt_le, zero_toInt] at h0'
  rw [StableHlo.Predicate.ofBool_eq_one_iff, BitVec.slt_iff_toInt_lt, k50000_toInt] at h1'
  exact ⟨h0', h1'⟩

/-- A word that is not negative is not below zero: the wrap leaves it alone. -/
theorem slt_zero {w : BitVec 32} (h0 : 0 ≤ w.toInt) : IntOp.cmpi .slt w 0#32 = 0#1 := by
  show BitVec.ofBool (w.slt 0#32) = 0#1
  have h : w.slt 0#32 = false := by
    rw [Bool.eq_false_iff]
    intro h
    rw [BitVec.slt_iff_toInt_lt, zero_toInt] at h
    omega
  rw [h]; rfl

theorem sge_zero {w : BitVec 32} (h0 : 0 ≤ w.toInt) : IntOp.cmpi .sge w 0#32 = 1#1 := by
  show BitVec.ofBool ((0#32 : BitVec 32).sle w) = 1#1
  rw [StableHlo.Predicate.ofBool_eq_one_iff, BitVec.sle_iff_toInt_le, zero_toInt]
  exact h0

theorem sle_top {w : BitVec 32} (h1 : w.toInt < 50000) : IntOp.cmpi .sle w 49999#32 = 1#1 := by
  show BitVec.ofBool (w.sle 49999#32) = 1#1
  rw [StableHlo.Predicate.ofBool_eq_one_iff, BitVec.sle_iff_toInt_le, k49999_toInt]
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ### The precondition at one index word -/

/-- Under the precondition every index word is a row of the table. -/
theorem pre_range (hpre : Cert.Pre_KernelIdeal m) (c : Dev nD) (i : S512x2.Idx) :
    0 ≤ (m ((c : Thread nD τ).loc main_arg2) i).toInt ∧ (m ((c : Thread nD τ).loc main_arg2) i).toInt < 50000 := by
  haveI : Subsingleton Cert.Pre_finite_inputs.S_.Idx := ⟨fun a b => funext fun d => d.elim0⟩
  have e := congrFun (hpre c) ValueIdx.ix0
  dsimp only [Cert.Pre_finite_inputs.fn] at e
  obtain ⟨-, e14⟩ := IntOp.andi_eq_one.1 e
  have h := Host.reduce_andi_all _ _ _ _ _ e14 i
  obtain ⟨h0, h1⟩ := IntOp.andi_eq_one.1 h
  exact word_range h0 h1

/-! ### The start indices -/

/-- Column `k` of the index pairs, as a vector, read at a pair. -/
theorem col_apply (nf : IVec S512x2 32) (o : Nat) (h1 : S512x2.Slices ![0, o] S512x1) (b : Fin 512) (k : Fin 2)
    (hk : k.val = o) :
    shapeCast S512 (extractStridedSlice S512x1 ![0, o] nf h1) shapeCasts_S512x1_S512 (ix1 b) = nf (ix2 b k) := by
  rw [shapeCast_apply _ shapeCasts_S512x1_S512 (ix1 b) (ix2 b (0 : Fin 1)) (by
    rw [Shape.rowMajor_val_two, Shape.rowMajor_val_one]
    show b.val * 1 + 0 = b.val
    omega)]
  exact slice2_axis1_apply o nf h1 b (0 : Fin 1) k (by rw [hk]; rfl)

/-- The wrap of a vector of index words, laid as a column, read at a row whose word is not negative: the word. -/
theorem wrap_apply (v : IVec S512 32) (b : Fin 512) (h0 : 0 ≤ (v (ix1 b)).toInt) :
    broadcastInDim S512x1 ![0] bcast_S512_S512x1_0
      (select (cmpi .slt v (broadcastInDim S512 ![] bcast_S_S512 (constantI S_ 32 0#32)))
        (addi v (broadcastInDim S512 ![] bcast_S_S512 (constantI S_ 32 50000#32))) v) (ix2 b (0 : Fin 1))
      = v (ix1 b) := by
  rw [broadcastInDim_apply _ bcast_S512_S512x1_0 _ (ix2 b (0 : Fin 1)) (ix1 b) (fun a => match a with | ⟨0, _⟩ => rfl)]
  rw [select_apply]
  have hc : cmpi .slt v (broadcastInDim S512 ![] bcast_S_S512 (constantI S_ 32 0#32)) (ix1 b) = 0#1 := slt_zero h0
  rw [hc, select_zero]

theorem rowsC_apply (nf : IVec S512x2 32) (b : Fin 512) (h0 : 0 ≤ (nf (ix2 b 0)).toInt) :
    rowsC nf (ix2 b (0 : Fin 1)) = nf (ix2 b 0) := by
  unfold rowsC
  rw [wrap_apply _ b (by rw [col_apply nf 0 _ b 0 rfl]; exact h0), col_apply nf 0 _ b 0 rfl]

theorem rowsD_apply (nf : IVec S512x2 32) (b : Fin 512) (h0 : 0 ≤ (nf (ix2 b 1)).toInt) :
    rowsD nf (ix2 b (0 : Fin 1)) = nf (ix2 b 1) := by
  unfold rowsD
  rw [wrap_apply _ b (by rw [col_apply nf 1 _ b 1 rfl]; exact h0), col_apply nf 1 _ b 1 rfl]

/-! ### The take: no row is replaced -/

/-- The take's range test of a column of start indices: `0 ≤ index ≤ 49999`, signed. -/
def inTable (rows : IVec S512x1 32) : IVec S512x1 1 :=
  andi (cmpi .sge rows (broadcastInDim S512x1 ![] bcast_S_S512x1 (constantI S_ 32 0#32)))
    (cmpi .sle rows (broadcastInDim S512x1 ![0, 1] bcast_S1x1_S512x1_0_1
      (broadcastInDim S1x1 ![1] bcast_S1_S1x1_1 (constantI S1 32 49999#32))))

/-- The gathered rows with those whose start index is outside the table replaced by the fill value. -/
def taken (W : FVec Ideal S50000x128 .f32) (rows : IVec S512x1 32) : FVec Ideal S512x128 .f32 :=
  select
    (broadcastInDim S512x128 ![0] bcast_S512_S512x128_0
      (Host.reduce IntOp.andi (inTable rows) (constantI S_ 1 1#1) reducesTo_S512x1_S512_d1 h_S_))
    (Host.gather gather_S50000x128_S512x1_S512x128_1_0_n_n_0_1_1128 W rows)
    (broadcastInDim S512x128 ![] bcast_S_S512x128 (constant (F := Ideal) S_ .f32 0x7FC00000#32))

/-- When every start index is a row of the table the take is the gather. -/
theorem taken_eq (W : FVec Ideal S50000x128 .f32) (rows : IVec S512x1 32)
    (hrows : ∀ b : Fin 512, 0 ≤ (rows (ix2 b (0 : Fin 1))).toInt ∧ (rows (ix2 b (0 : Fin 1))).toInt < 50000) :
    taken W rows = Host.gather gather_S50000x128_S512x1_S512x128_1_0_n_n_0_1_1128 W rows := by
  funext i
  obtain ⟨b, j, rfl⟩ : ∃ (b : Fin 512) (j : Fin 128), i = ix2 b j := ⟨i 0, i 1, eq_ix2 i⟩
  have hall : ∀ y : S512x1.Idx, inTable rows y = 1#1 := by
    intro y
    obtain ⟨p, q, rfl⟩ : ∃ (p : Fin 512) (q : Fin 1), y = ix2 p q := ⟨y 0, y 1, eq_ix2 y⟩
    have hq : q = 0 := Subsingleton.elim _ _
    subst hq
    exact IntOp.andi_eq_one.2 ⟨sge_zero (hrows p).1, sle_top (hrows p).2⟩
  have hred : Host.reduce IntOp.andi (inTable rows) (constantI S_ 1 1#1) reducesTo_S512x1_S512_d1 h_S_ (ix1 b) = 1#1 := by
    rw [Host.reduce_eq_foldl]
    exact foldl_andi_one _ hall _
  unfold taken
  rw [select_apply,
    broadcastInDim_apply _ bcast_S512_S512x128_0 _ (ix2 b j) (ix1 b) (fun a => match a with | ⟨0, _⟩ => rfl),
    hred, select_one]

/-! ### The corners of a row -/

/-- The centres of the two boxes of each row: columns `64 k + d`, `d < 32`. -/
def centres (x : FVec Ideal S512x128 .f32) : FVec Ideal S512x2x32 .f32 :=
  extractStridedSlice S512x2x32 ![0, 0, 0] (shapeCast S512x2x64 x shapeCasts_S512x128_S512x2x64) slices_S512x2x64_S512x2x32_0_0_0

/-- The absolute half-widths of the two boxes of each row: columns `64 k + 32 + d`, `d < 32`. -/
def widths (x : FVec Ideal S512x128 .f32) : FVec Ideal S512x2x32 .f32 :=
  Host.absf (extractStridedSlice S512x2x32 ![0, 0, 32] (shapeCast S512x2x64 x shapeCasts_S512x128_S512x2x64) slices_S512x2x64_S512x2x32_0_0_32)

/-- Column `e` of box `k` of row `b` is column `64 k + e` of the row. -/
theorem boxes_apply (x : FVec Ideal S512x128 .f32) (b : Fin 512) (k : Fin 2) (e : Fin 64) (col : Fin 128)
    (hcol : col.val = 64 * k.val + e.val) :
    shapeCast S512x2x64 x shapeCasts_S512x128_S512x2x64 (ix3 b k e) = x (ix2 b col) :=
  shapeCast_apply x shapeCasts_S512x128_S512x2x64 _ _ (by
    rw [Shape.rowMajor_val_two, Shape.rowMajor_val_three]
    show b.val * 128 + col.val = (b.val * 2 + k.val) * 64 + e.val
    omega)

theorem centres_apply (x : FVec Ideal S512x128 .f32) (b : Fin 512) (k : Fin 2) (d : Fin 32) :
    centres x (ix3 b k d) = x (ix2 b ⟨64 * k.val + d.val, by have := k.isLt; have := d.isLt; omega⟩) := by
  unfold centres
  rw [extractStridedSlice_apply _ _ slices_S512x2x64_S512x2x32_0_0_0 (ix3 b k d)
    (ix3 b k (⟨d.val, by have := d.isLt; omega⟩ : Fin 64))
    (fun a => match a with
      | ⟨0, _⟩ => (Nat.zero_add _).symm
      | ⟨1, _⟩ => (Nat.zero_add _).symm
      | ⟨2, _⟩ => (Nat.zero_add _).symm)]
  exact boxes_apply x b k _ _ rfl

theorem widths_apply (x : FVec Ideal S512x128 .f32) (b : Fin 512) (k : Fin 2) (d : Fin 32) :
    widths x (ix3 b k d)
      = max (x (ix2 b ⟨64 * k.val + 32 + d.val, by have := k.isLt; have := d.isLt; omega⟩))
          (-(x (ix2 b ⟨64 * k.val + 32 + d.val, by have := k.isLt; have := d.isLt; omega⟩))) := by
  have e : extractStridedSlice S512x2x32 ![0, 0, 32] (shapeCast S512x2x64 x shapeCasts_S512x128_S512x2x64)
        slices_S512x2x64_S512x2x32_0_0_32 (ix3 b k d)
      = x (ix2 b ⟨64 * k.val + 32 + d.val, by have := k.isLt; have := d.isLt; omega⟩) := by
    rw [extractStridedSlice_apply _ _ slices_S512x2x64_S512x2x32_0_0_32 (ix3 b k d)
      (ix3 b k (⟨32 + d.val, by have := d.isLt; omega⟩ : Fin 64))
      (fun a => match a with
        | ⟨0, _⟩ => (Nat.zero_add _).symm
        | ⟨1, _⟩ => (Nat.zero_add _).symm
        | ⟨2, _⟩ => rfl)]
    exact boxes_apply x b k _ _ (by show 64 * k.val + 32 + d.val = 64 * k.val + (32 + d.val); omega)
  unfold widths
  show max (extractStridedSlice S512x2x32 ![0, 0, 32] (shapeCast S512x2x64 x shapeCasts_S512x128_S512x2x64)
        slices_S512x2x64_S512x2x32_0_0_32 (ix3 b k d))
      (-(extractStridedSlice S512x2x32 ![0, 0, 32] (shapeCast S512x2x64 x shapeCasts_S512x128_S512x2x64)
        slices_S512x2x64_S512x2x32_0_0_32 (ix3 b k d))) = _
  rw [e]

/-! ### The four corner arrays as terms -/

/-- The first classes' lower corners as a term of the argument arrays: centre minus absolute half-width of the take. -/
theorem v10_eq (c : Dev nD) : (V m c main_v10 : S512x2x32.Idx → EReal)
    = subf (centres (taken (m ((c : Thread nD τ).loc main_arg0)) (rowsC (m ((c : Thread nD τ).loc main_arg2)))))
        (widths (taken (m ((c : Thread nD τ).loc main_arg0)) (rowsC (m ((c : Thread nD τ).loc main_arg2))))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- The first classes' upper corners: centre plus absolute half-width of the take. -/
theorem v11_eq (c : Dev nD) : (V m c main_v11 : S512x2x32.Idx → EReal)
    = addf (centres (taken (m ((c : Thread nD τ).loc main_arg0)) (rowsC (m ((c : Thread nD τ).loc main_arg2)))))
        (widths (taken (m ((c : Thread nD τ).loc main_arg0)) (rowsC (m ((c : Thread nD τ).loc main_arg2))))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- The second classes' lower corners, likewise. -/
theorem v16_eq (c : Dev nD) : (V m c main_v16 : S512x2x32.Idx → EReal)
    = subf (centres (taken (m ((c : Thread nD τ).loc main_arg0)) (rowsD (m ((c : Thread nD τ).loc main_arg2)))))
        (widths (taken (m ((c : Thread nD τ).loc main_arg0)) (rowsD (m ((c : Thread nD τ).loc main_arg2))))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- The second classes' upper corners, likewise. -/
theorem v17_eq (c : Dev nD) : (V m c main_v17 : S512x2x32.Idx → EReal)
    = addf (centres (taken (m ((c : Thread nD τ).loc main_arg0)) (rowsD (m ((c : Thread nD τ).loc main_arg2)))))
        (widths (taken (m ((c : Thread nD τ).loc main_arg0)) (rowsD (m ((c : Thread nD τ).loc main_arg2))))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- Under the precondition the first classes' take is their gathered rows. -/
theorem takenC_eq (hpre : Cert.Pre_KernelIdeal m) (c : Dev nD) :
    taken (m ((c : Thread nD τ).loc main_arg0)) (rowsC (m ((c : Thread nD τ).loc main_arg2)))
      = embC (m ((c : Thread nD τ).loc main_arg0)) (m ((c : Thread nD τ).loc main_arg2)) := by
  unfold embC
  exact taken_eq _ _ (fun b => by
    rw [rowsC_apply _ b (pre_range m hpre c _).1]
    exact pre_range m hpre c _)

/-- Under the precondition the second classes' take is their gathered rows. -/
theorem takenD_eq (hpre : Cert.Pre_KernelIdeal m) (c : Dev nD) :
    taken (m ((c : Thread nD τ).loc main_arg0)) (rowsD (m ((c : Thread nD τ).loc main_arg2)))
      = embD (m ((c : Thread nD τ).loc main_arg0)) (m ((c : Thread nD τ).loc main_arg2)) := by
  unfold embD
  exact taken_eq _ _ (fun b => by
    rw [rowsD_apply _ b (pre_range m hpre c _).1]
    exact pre_range m hpre c _)

/-- The first classes' lower corners, as the region finds them. -/
theorem lo1_apply (hpre : Cert.Pre_KernelIdeal m) (c : Dev nD) (b : Fin 512) (k : Fin 2) (d : Fin 32) :
    (V m c main_v10 (ix3 b k d) : EReal) = boxLo (rowC m c b) k d := by
  rw [v10_eq m c, takenC_eq m hpre c, subf_apply, centres_apply, widths_apply]
  rfl

/-- The first classes' upper corners. -/
theorem hi1_apply (hpre : Cert.Pre_KernelIdeal m) (c : Dev nD) (b : Fin 512) (k : Fin 2) (d : Fin 32) :
    (V m c main_v11 (ix3 b k d) : EReal) = boxHi (rowC m c b) k d := by
  rw [v11_eq m c, takenC_eq m hpre c, addf_apply, centres_apply, widths_apply]
  rfl

/-- The second classes' lower corners. -/
theorem lo2_apply (hpre : Cert.Pre_KernelIdeal m) (c : Dev nD) (b : Fin 512) (k : Fin 2) (d : Fin 32) :
    (V m c main_v16 (ix3 b k d) : EReal) = boxLo (rowD m c b) k d := by
  rw [v16_eq m c, takenD_eq m hpre c, subf_apply, centres_apply, widths_apply]
  rfl

/-- The second classes' upper corners. -/
theorem hi2_apply (hpre : Cert.Pre_KernelIdeal m) (c : Dev nD) (b : Fin 512) (k : Fin 2) (d : Fin 32) :
    (V m c main_v17 (ix3 b k d) : EReal) = boxHi (rowD m c b) k d := by
  rw [v17_eq m c, takenD_eq m hpre c, addf_apply, centres_apply, widths_apply]
  rfl

/-- The transposed points: coordinate `d` of point `p`. -/
theorem pts_apply (c : Dev nD) (d : Fin 32) (p : Fin 2048) :
    (V m c main_v18 (ix2 d p) : EReal) = m ((c : Thread nD τ).loc main_arg1) (ix2 p d) := by
  have e : (V m c main_v18 : S32x2048.Idx → EReal)
      = transpose S32x2048 [1, 0] (m ((c : Thread nD τ).loc main_arg1)) transposes_S2048x32_S32x2048_1_0 := by
    dsimp only [Gen.V]
    simp only [Gen.hostOps0, Gen.hostOps0_1, Gen.hostOps0_2, Gen.hostOps0_3, List.flatten_cons, List.flatten_nil,
      List.append_nil, List.cons_append, List.nil_append]
    after_results
  rw [e]
  exact transpose_ix2_apply _ _ d p

end Cert.KernelIdeal.Arrays

end
-- ==== Proof.RefValue.lean ====
/-
  The reference's result, read at its single entry, is the loss of the gathered rows and the points.

  The reference gathers the rows the same way (a negative index wrapped, no fill), forms the corners, broadcasts
  corners and points to a `[512, 2, 2048, 32]` array of face distances, takes the least over the last axis, the logistic,
  the greater over the two boxes, the term per (pair, point), the sum over all of them divided by their number, and
  the maximum with zero.
-/
import proofs.«406379_j52802327937557_3_alg».proof.Defs
import proofs.«406379_j52802327937557_3_alg».proof.Proof.Gen.ReferenceIdeal.Read
import proofs.«406379_j52802327937557_3_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx Cert.BoxLoss

/-- Column `0` of the index pairs as the gather takes it: one start index per pair, a negative one wrapped by 50000. -/
def rowsC (nf : IVec S512x2 32) : IVec S512x1 32 :=
  broadcastInDim S512x1 ![0] bcast_S512_S512x1_0
    (select (cmpi .slt (shapeCast S512 (extractStridedSlice S512x1 ![0, 0] nf slices_S512x2_S512x1_0_0) shapeCasts_S512x1_S512)
        (broadcastInDim S512 ![] bcast_S_S512 (constantI S_ 32 0#32)))
      (addi (shapeCast S512 (extractStridedSlice S512x1 ![0, 0] nf slices_S512x2_S512x1_0_0) shapeCasts_S512x1_S512)
        (broadcastInDim S512 ![] bcast_S_S512 (constantI S_ 32 50000#32)))
      (shapeCast S512 (extractStridedSlice S512x1 ![0, 0] nf slices_S512x2_S512x1_0_0) shapeCasts_S512x1_S512))

/-- Column `1` of the index pairs, likewise. -/
def rowsD (nf : IVec S512x2 32) : IVec S512x1 32 :=
  broadcastInDim S512x1 ![0] bcast_S512_S512x1_0
    (select (cmpi .slt (shapeCast S512 (extractStridedSlice S512x1 ![0, 1] nf slices_S512x2_S512x1_0_1) shapeCasts_S512x1_S512)
        (broadcastInDim S512 ![] bcast_S_S512 (constantI S_ 32 0#32)))
      (addi (shapeCast S512 (extractStridedSlice S512x1 ![0, 1] nf slices_S512x2_S512x1_0_1) shapeCasts_S512x1_S512)
        (broadcastInDim S512 ![] bcast_S_S512 (constantI S_ 32 50000#32)))
      (shapeCast S512 (extractStridedSlice S512x1 ![0, 1] nf slices_S512x2_S512x1_0_1) shapeCasts_S512x1_S512))

/-- The gathered rows of the first classes. -/
def embC (W : FVec Ideal S50000x128 .f32) (nf : IVec S512x2 32) : FVec Ideal S512x128 .f32 :=
  Host.gather gather_S50000x128_S512x1_S512x128_1_0_n_n_0_1_1128 W (rowsC nf)

/-- The gathered rows of the second classes. -/
def embD (W : FVec Ideal S50000x128 .f32) (nf : IVec S512x2 32) : FVec Ideal S512x128 .f32 :=
  Host.gather gather_S50000x128_S512x1_S512x128_1_0_n_n_0_1_1128 W (rowsD nf)

section Steps

variable (x0 : FVec Ideal S50000x128 .f32) (x1 : FVec Ideal S2048x32 .f32) (x2 : IVec S512x2 32)

/-! ### The gathers are the rows fixed above -/

theorem gatherC_eq : Read.val_main_v8 (F := Ideal) x0 x2 = embC x0 x2 := rfl
theorem gatherD_eq : Read.val_main_v23 (F := Ideal) x0 x2 = embD x0 x2 := rfl

/-! ### The two folds: the least over the coordinates, the greater over the boxes -/

/-- The reduced index (b, k, p) with coordinate `d` put back on the last axis is (b, k, p, d). -/
theorem lift_last (h : S512x2x2048x32.Reduces [3] S512x2x2048) (b : Fin 512) (k : Fin 2) (p : Fin 2048) (d : Fin 32) :
    h.lift (ix3 b k p) d = ix4 b k p d := by
  funext c; apply Fin.ext
  fin_cases c <;> rfl

/-- The reduced index (b, p) with box `k` put back on the middle axis is (b, k, p). -/
theorem lift_mid (h : S512x2x2048.Reduces [1] S512x2048) (b : Fin 512) (p : Fin 2048) (k : Fin 2) :
    h.lift (ix2 b p) k = ix3 b k p := by
  funext c; apply Fin.ext
  fin_cases c <;> rfl

/-- A minimum over the last axis from an initial value +∞, at (b, k, p): the least of the 32 entries (b, k, p, ·). -/
theorem reduce_min_last (x : FVec Ideal S512x2x2048x32 .f32) (init : FVec Ideal S_ .f32)
    (hinit : init (Shape.Idx.first h_S_) = (⊤ : EReal)) (b : Fin 512) (k : Fin 2) (p : Fin 2048) :
    Host.reduce FloatOps.minimumf x init reducesTo_S512x2x2048x32_S512x2x2048_d3 h_S_ (ix3 b k p)
      = (Finset.univ : Finset (Fin 32)).fold min ⊤ (fun d => x (ix4 b k p d)) := by
  have hR : S512x2x2048x32.Reduces [3] S512x2x2048 := by decide
  rw [Host.reduce_eq_fold_single FloatOps.minimumf x init reducesTo_S512x2x2048x32_S512x2x2048_d3 hR h_S_, hinit]
  exact congrArg (fun f => Finset.fold min (⊤ : EReal) f (Finset.univ : Finset (Fin 32)))
    (funext fun d => congrArg x (lift_last hR b k p d))

/-- A maximum over the box axis from an initial value −∞, at (b, p): the greater of the two entries (b, ·, p). -/
theorem reduce_max_mid (x : FVec Ideal S512x2x2048 .f32) (init : FVec Ideal S_ .f32)
    (hinit : init (Shape.Idx.first h_S_) = (⊥ : EReal)) (b : Fin 512) (p : Fin 2048) :
    Host.reduce FloatOps.maximumf x init reducesTo_S512x2x2048_S512x2048_d1 h_S_ (ix2 b p)
      = (Finset.univ : Finset (Fin 2)).fold max ⊥ (fun k => x (ix3 b k p)) := by
  have hR : S512x2x2048.Reduces [1] S512x2048 := by decide
  rw [Host.reduce_eq_fold_single FloatOps.maximumf x init reducesTo_S512x2x2048_S512x2048_d1 hR h_S_, hinit]
  exact congrArg (fun f => Finset.fold max (⊥ : EReal) f (Finset.univ : Finset (Fin 2)))
    (funext fun k => congrArg x (lift_mid hR b p k))

/-- The word of +∞. -/
theorem top_word : Ideal.ofBits .f32 0x7F800000#32 = (⊤ : EReal) := by simp [Ideal.ofBits, Ideal.ieee]
/-- The word of −∞. -/
theorem bot_word : Ideal.ofBits .f32 0xFF800000#32 = (⊥ : EReal) := by simp [Ideal.ofBits, Ideal.ieee]

/-! ### The first classes' boxes -/

/-- The centre of box `k` of pair `b`'s first row at coordinate `d`: entry `64 k + d` of the gathered row. -/
theorem ctrC_apply (b : Fin 512) (k : Fin 2) (d : Fin 32) :
    Read.val_main_v10 (F := Ideal) x0 x2 (ix3 b k d)
      = embC x0 x2 (ix2 b ⟨64 * k.val + d.val, by have := k.isLt; have := d.isLt; omega⟩) := by
  rw [Read.val_main_v10_apply, Read.val_main_v9_apply, gatherC_eq]
  refine congrArg (embC x0 x2) (funext fun a => Fin.ext ?_)
  have hk := k.isLt
  have hd := d.isLt
  match a with
  | ⟨0, _⟩ => show ((b.val * 2 + k.val) * 64 + d.val) / 128 = b.val; omega
  | ⟨1, _⟩ => show ((b.val * 2 + k.val) * 64 + d.val) % 128 = 64 * k.val + d.val; omega

/-- The half-width likewise: entry `64 k + 32 + d` of the gathered row. -/
theorem hwC_apply (b : Fin 512) (k : Fin 2) (d : Fin 32) :
    Read.val_main_v11 (F := Ideal) x0 x2 (ix3 b k d)
      = embC x0 x2 (ix2 b ⟨64 * k.val + 32 + d.val, by have := k.isLt; have := d.isLt; omega⟩) := by
  rw [Read.val_main_v11_apply, Read.val_main_v9_apply, gatherC_eq]
  refine congrArg (embC x0 x2) (funext fun a => Fin.ext ?_)
  have hk := k.isLt
  have hd := d.isLt
  match a with
  | ⟨0, _⟩ => show ((b.val * 2 + k.val) * 64 + (32 + d.val)) / 128 = b.val; omega
  | ⟨1, _⟩ => show ((b.val * 2 + k.val) * 64 + (32 + d.val)) % 128 = 64 * k.val + 32 + d.val; omega

/-- Centre minus the half-width's absolute value is the lower corner. -/
theorem loC_apply (b : Fin 512) (k : Fin 2) (d : Fin 32) :
    Read.val_main_v13 (F := Ideal) x0 x2 (ix3 b k d) = boxLo (fun j => embC x0 x2 (ix2 b j)) k d := by
  rw [Read.val_main_v13_apply, Read.val_main_v12_apply, ctrC_apply, hwC_apply]
  rfl

/-- Centre plus the half-width's absolute value is the upper corner. -/
theorem hiC_apply (b : Fin 512) (k : Fin 2) (d : Fin 32) :
    Read.val_main_v14 (F := Ideal) x0 x2 (ix3 b k d) = boxHi (fun j => embC x0 x2 (ix2 b j)) k d := by
  rw [Read.val_main_v14_apply, Read.val_main_v12_apply, ctrC_apply, hwC_apply]
  rfl

/-- The two face distances at (b, k, p, d): the point's coordinate less the lower corner, against the upper corner
    less the coordinate. -/
theorem faceC_apply (b : Fin 512) (k : Fin 2) (p : Fin 2048) (d : Fin 32) :
    Read.val_main_v40 (F := Ideal) x0 x1 x2 (ix4 b k p d)
      = min (x1 (ix2 p d) - boxLo (fun j => embC x0 x2 (ix2 b j)) k d)
          (boxHi (fun j => embC x0 x2 (ix2 b j)) k d - x1 (ix2 p d)) := by
  have e1 : Read.idx_main_v30 (Read.idx_main_v32 (ix4 b k p d)) = ix2 p d :=
    funext fun a => Fin.ext (by match a with | ⟨0, _⟩ => rfl | ⟨1, _⟩ => rfl)
  have e2 : Read.idx_main_v31 (Read.idx_main_v33 (ix4 b k p d)) = ix3 b k d :=
    funext fun a => Fin.ext (by match a with | ⟨0, _⟩ => rfl | ⟨1, _⟩ => rfl | ⟨2, _⟩ => rfl)
  have e3 : Read.idx_main_v35 (Read.idx_main_v37 (ix4 b k p d)) = ix3 b k d :=
    funext fun a => Fin.ext (by match a with | ⟨0, _⟩ => rfl | ⟨1, _⟩ => rfl | ⟨2, _⟩ => rfl)
  have e4 : Read.idx_main_v36 (Read.idx_main_v38 (ix4 b k p d)) = ix2 p d :=
    funext fun a => Fin.ext (by match a with | ⟨0, _⟩ => rfl | ⟨1, _⟩ => rfl)
  rw [Read.val_main_v40_apply, Read.val_main_v34_apply, Read.val_main_v39_apply,
    Read.val_main_v32_apply, Read.val_main_v30_apply, Read.val_main_v33_apply, Read.val_main_v31_apply,
    Read.val_main_v37_apply, Read.val_main_v35_apply, Read.val_main_v38_apply, Read.val_main_v36_apply,
    e1, e2, e3, e4, loC_apply, hiC_apply]
  rfl

/-- The least face distance over the coordinates, from +∞, is the margin of point `p` to box `k` of pair `b`. -/
theorem marginC_apply (b : Fin 512) (k : Fin 2) (p : Fin 2048) :
    Read.val_main_v41 (F := Ideal) x0 x1 x2 (ix3 b k p)
      = margin (boxLo (fun j => embC x0 x2 (ix2 b j)) k) (boxHi (fun j => embC x0 x2 (ix2 b j)) k)
          (fun d => x1 (ix2 p d)) := by
  have htop : Read.val_main_cst (F := Ideal) (Shape.Idx.first h_S_) = (⊤ : EReal) := by
    rw [Read.val_main_cst_apply, Ideal.ofBits_def]
    exact top_word
  unfold Read.val_main_v41
  rw [reduce_min_last _ _ htop b k p]
  simp only [faceC_apply]
  rfl

/-- Negation, exponential, one plus, one over: the logistic of the margin. -/
theorem logisticC_apply (b : Fin 512) (k : Fin 2) (p : Fin 2048) :
    Read.val_main_v47 (F := Ideal) x0 x1 x2 (ix3 b k p)
      = Ideal.logistic (margin (boxLo (fun j => embC x0 x2 (ix2 b j)) k) (boxHi (fun j => embC x0 x2 (ix2 b j)) k)
          (fun d => x1 (ix2 p d))) := by
  rw [Read.val_main_v47_apply, Read.val_main_v46_apply, Read.val_main_cst_4_apply, Read.val_main_v45_apply,
    Read.val_main_v44_apply, Read.val_main_cst_3_apply, Read.val_main_v43_apply, Read.val_main_v42_apply,
    marginC_apply, Ideal.hostDivf_def, Ideal.addf_def, Ideal.hostUnary_exp_def, Ideal.hostNegf_def, Ideal.negf_def,
    Ideal.ofBits_def, Ideal.ofBits_one_f32]
  rfl

/-- The greater logistic margin over the two boxes, from −∞, is the soft inclusion of point `p` in pair `b`'s first
    boxes. -/
theorem inclC_apply (b : Fin 512) (p : Fin 2048) :
    Read.val_main_v48 (F := Ideal) x0 x1 x2 (ix2 b p)
      = incl (boxLo (fun j => embC x0 x2 (ix2 b j))) (boxHi (fun j => embC x0 x2 (ix2 b j)))
          (fun d => x1 (ix2 p d)) := by
  have hbot : Read.val_main_cst_5 (F := Ideal) (Shape.Idx.first h_S_) = (⊥ : EReal) := by
    rw [Read.val_main_cst_5_apply, Ideal.ofBits_def]
    exact bot_word
  unfold Read.val_main_v48
  rw [reduce_max_mid _ _ hbot b p]
  simp only [logisticC_apply]
  rfl

/-! ### The second classes' boxes -/

/-- The centre of box `k` of pair `b`'s second row at coordinate `d`: entry `64 k + d` of the gathered row. -/
theorem ctrD_apply (b : Fin 512) (k : Fin 2) (d : Fin 32) :
    Read.val_main_v25 (F := Ideal) x0 x2 (ix3 b k d)
      = embD x0 x2 (ix2 b ⟨64 * k.val + d.val, by have := k.isLt; have := d.isLt; omega⟩) := by
  rw [Read.val_main_v25_apply, Read.val_main_v24_apply, gatherD_eq]
  refine congrArg (embD x0 x2) (funext fun a => Fin.ext ?_)
  have hk := k.isLt
  have hd := d.isLt
  match a with
  | ⟨0, _⟩ => show ((b.val * 2 + k.val) * 64 + d.val) / 128 = b.val; omega
  | ⟨1, _⟩ => show ((b.val * 2 + k.val) * 64 + d.val) % 128 = 64 * k.val + d.val; omega

/-- The half-width likewise: entry `64 k + 32 + d` of the gathered row. -/
theorem hwD_apply (b : Fin 512) (k : Fin 2) (d : Fin 32) :
    Read.val_main_v26 (F := Ideal) x0 x2 (ix3 b k d)
      = embD x0 x2 (ix2 b ⟨64 * k.val + 32 + d.val, by have := k.isLt; have := d.isLt; omega⟩) := by
  rw [Read.val_main_v26_apply, Read.val_main_v24_apply, gatherD_eq]
  refine congrArg (embD x0 x2) (funext fun a => Fin.ext ?_)
  have hk := k.isLt
  have hd := d.isLt
  match a with
  | ⟨0, _⟩ => show ((b.val * 2 + k.val) * 64 + (32 + d.val)) / 128 = b.val; omega
  | ⟨1, _⟩ => show ((b.val * 2 + k.val) * 64 + (32 + d.val)) % 128 = 64 * k.val + 32 + d.val; omega

/-- Centre minus the half-width's absolute value is the lower corner. -/
theorem loD_apply (b : Fin 512) (k : Fin 2) (d : Fin 32) :
    Read.val_main_v28 (F := Ideal) x0 x2 (ix3 b k d) = boxLo (fun j => embD x0 x2 (ix2 b j)) k d := by
  rw [Read.val_main_v28_apply, Read.val_main_v27_apply, ctrD_apply, hwD_apply]
  rfl

/-- Centre plus the half-width's absolute value is the upper corner. -/
theorem hiD_apply (b : Fin 512) (k : Fin 2) (d : Fin 32) :
    Read.val_main_v29 (F := Ideal) x0 x2 (ix3 b k d) = boxHi (fun j => embD x0 x2 (ix2 b j)) k d := by
  rw [Read.val_main_v29_apply, Read.val_main_v27_apply, ctrD_apply, hwD_apply]
  rfl

/-- The two face distances at (b, k, p, d): the point's coordinate less the lower corner, against the upper corner
    less the coordinate. -/
theorem faceD_apply (b : Fin 512) (k : Fin 2) (p : Fin 2048) (d : Fin 32) :
    Read.val_main_v59 (F := Ideal) x0 x1 x2 (ix4 b k p d)
      = min (x1 (ix2 p d) - boxLo (fun j => embD x0 x2 (ix2 b j)) k d)
          (boxHi (fun j => embD x0 x2 (ix2 b j)) k d - x1 (ix2 p d)) := by
  have e1 : Read.idx_main_v49 (Read.idx_main_v51 (ix4 b k p d)) = ix2 p d :=
    funext fun a => Fin.ext (by match a with | ⟨0, _⟩ => rfl | ⟨1, _⟩ => rfl)
  have e2 : Read.idx_main_v50 (Read.idx_main_v52 (ix4 b k p d)) = ix3 b k d :=
    funext fun a => Fin.ext (by match a with | ⟨0, _⟩ => rfl | ⟨1, _⟩ => rfl | ⟨2, _⟩ => rfl)
  have e3 : Read.idx_main_v54 (Read.idx_main_v56 (ix4 b k p d)) = ix3 b k d :=
    funext fun a => Fin.ext (by match a with | ⟨0, _⟩ => rfl | ⟨1, _⟩ => rfl | ⟨2, _⟩ => rfl)
  have e4 : Read.idx_main_v55 (Read.idx_main_v57 (ix4 b k p d)) = ix2 p d :=
    funext fun a => Fin.ext (by match a with | ⟨0, _⟩ => rfl | ⟨1, _⟩ => rfl)
  rw [Read.val_main_v59_apply, Read.val_main_v53_apply, Read.val_main_v58_apply,
    Read.val_main_v51_apply, Read.val_main_v49_apply, Read.val_main_v52_apply, Read.val_main_v50_apply,
    Read.val_main_v56_apply, Read.val_main_v54_apply, Read.val_main_v57_apply, Read.val_main_v55_apply,
    e1, e2, e3, e4, loD_apply, hiD_apply]
  rfl

/-- The least face distance over the coordinates, from +∞, is the margin of point `p` to box `k` of pair `b`. -/
theorem marginD_apply (b : Fin 512) (k : Fin 2) (p : Fin 2048) :
    Read.val_main_v60 (F := Ideal) x0 x1 x2 (ix3 b k p)
      = margin (boxLo (fun j => embD x0 x2 (ix2 b j)) k) (boxHi (fun j => embD x0 x2 (ix2 b j)) k)
          (fun d => x1 (ix2 p d)) := by
  have htop : Read.val_main_cst_6 (F := Ideal) (Shape.Idx.first h_S_) = (⊤ : EReal) := by
    rw [Read.val_main_cst_6_apply, Ideal.ofBits_def]
    exact top_word
  unfold Read.val_main_v60
  rw [reduce_min_last _ _ htop b k p]
  simp only [faceD_apply]
  rfl

/-- Negation, exponential, one plus, one over: the logistic of the margin. -/
theorem logisticD_apply (b : Fin 512) (k : Fin 2) (p : Fin 2048) :
    Read.val_main_v66 (F := Ideal) x0 x1 x2 (ix3 b k p)
      = Ideal.logistic (margin (boxLo (fun j => embD x0 x2 (ix2 b j)) k) (boxHi (fun j => embD x0 x2 (ix2 b j)) k)
          (fun d => x1 (ix2 p d))) := by
  rw [Read.val_main_v66_apply, Read.val_main_v65_apply, Read.val_main_cst_8_apply, Read.val_main_v64_apply,
    Read.val_main_v63_apply, Read.val_main_cst_7_apply, Read.val_main_v62_apply, Read.val_main_v61_apply,
    marginD_apply, Ideal.hostDivf_def, Ideal.addf_def, Ideal.hostUnary_exp_def, Ideal.hostNegf_def, Ideal.negf_def,
    Ideal.ofBits_def, Ideal.ofBits_one_f32]
  rfl

/-- The greater logistic margin over the two boxes, from −∞, is the soft inclusion of point `p` in pair `b`'s second
    boxes. -/
theorem inclD_apply (b : Fin 512) (p : Fin 2048) :
    Read.val_main_v67 (F := Ideal) x0 x1 x2 (ix2 b p)
      = incl (boxLo (fun j => embD x0 x2 (ix2 b j))) (boxHi (fun j => embD x0 x2 (ix2 b j)))
          (fun d => x1 (ix2 p d)) := by
  have hbot : Read.val_main_cst_9 (F := Ideal) (Shape.Idx.first h_S_) = (⊥ : EReal) := by
    rw [Read.val_main_cst_9_apply, Ideal.ofBits_def]
    exact bot_word
  unfold Read.val_main_v67
  rw [reduce_max_mid _ _ hbot b p]
  simp only [logisticD_apply]
  rfl

/-! ### The term of a pair at a point, and the loss -/

/-- The term as the program spells it, its constants as words, is the specification's term: only the zero word is
    evaluated. -/
theorem term_words (ci di : EReal) :
    Ideal.ofBits .f32 0x3F800000#32
        - Ideal.div
            (max ((ci + di) * Ideal.ofBits .f32 0x3F000000#32 - Ideal.ofBits .f32 0x3F000000#32)
                (Ideal.ofBits .f32 0x00000000#32) * Ideal.ofBits .f32 0x3B000000#32)
            (max (ci - Ideal.ofBits .f32 0x3F000000#32) (Ideal.ofBits .f32 0x00000000#32)
                * Ideal.ofBits .f32 0x3B000000#32 + Ideal.ofBits .f32 0x3089705F#32)
      = term ci di := by
  rw [Ideal.ofBits_zero_f32]
  rfl

/-- The term array at (b, p) is the term of pair `b`'s two rows at point `p`. -/
theorem pairTerm_apply (b : Fin 512) (p : Fin 2048) :
    Read.val_main_v85 (F := Ideal) x0 x1 x2 (ix2 b p)
      = pairTerm (fun j => embC x0 x2 (ix2 b j)) (fun j => embD x0 x2 (ix2 b j)) (fun d => x1 (ix2 p d)) := by
  rw [Read.val_main_v85_apply, Read.val_main_v84_apply, Read.val_main_cst_16_apply, Read.val_main_v83_apply,
    Read.val_main_v80_apply, Read.val_main_v78_apply, Read.val_main_v77_apply, Read.val_main_v75_apply,
    Read.val_main_v73_apply, Read.val_main_v74_apply, Read.val_main_cst_12_apply, Read.val_main_v76_apply,
    Read.val_main_cst_13_apply, Read.val_main_call1_v0_apply, Read.val_main_call1_cst_apply, Read.val_main_v79_apply,
    Read.val_main_cst_14_apply, Read.val_main_v82_apply, Read.val_main_v72_apply, Read.val_main_v70_apply,
    Read.val_main_v69_apply, Read.val_main_v68_apply, Read.val_main_cst_10_apply, Read.val_main_call0_v0_apply,
    Read.val_main_call0_cst_apply, Read.val_main_v71_apply, Read.val_main_cst_11_apply, Read.val_main_v81_apply,
    Read.val_main_cst_15_apply, inclC_apply, inclD_apply]
  simp only [Ideal.subf_def, Ideal.hostDivf_def, Ideal.mulf_def, Ideal.maximumf_def, Ideal.addf_def, Ideal.ofBits_def]
  exact term_words _ _

end Steps

/-- THE REFERENCE'S RESULT at its entry: the loss of the gathered rows and the points. -/
theorem result_apply (x0 : FVec Ideal S50000x128 .f32) (x1 : FVec Ideal S2048x32 .f32) (x2 : IVec S512x2 32) :
    (Read.val_main_v89 (F := Ideal) x0 x1 x2 (ix2 0 0) : EReal)
      = loss (fun b j => embC x0 x2 (ix2 b j)) (fun b j => embD x0 x2 (ix2 b j)) (fun p d => x1 (ix2 p d)) := by
  have hcast : Read.val_main_v89 (F := Ideal) x0 x1 x2 (ix2 0 0) = Read.val_main_v88 (F := Ideal) x0 x1 x2 ix0 := by
    unfold Read.val_main_v89
    refine shapeCast_apply _ shapeCasts_S_S1x1 (ix2 0 0) ix0 ?_
    have h1 := (S_.rowMajor ix0).isLt
    have h2 := (S1x1.rowMajor (ix2 0 0)).isLt
    have e1 : S_.numel = 1 := by decide
    have e2 : S1x1.numel = 1 := by decide
    omega
  rw [hcast, Read.val_main_v88_apply, Read.val_main_call2_cst_apply, Read.val_main_v87_apply, Read.val_main_cst_18_apply,
    Read.val_main_v86_apply, Read.val_main_cst_17_apply, sum_idx2]
  simp only [pairTerm_apply, Ideal.maximumf_def, Ideal.hostDivf_def, Ideal.ofBits_def, Ideal.ofBits_zero_f32, zero_add]
  rfl

end Cert.ReferenceIdeal.RefValue

end
-- ==== Proof.lean ====
/-
  A kernel that scores class inclusions by Monte-Carlo points against its jnp reference, over the extended reals.

  Both programs gather, for each of 512 pairs of class indices, the two classes' rows of a table; a row holds two
  boxes in dimension 32 (centres and half-widths). For every pair and each of 2048 points they form the soft
  inclusion of the point in each class (the greater over the class's two boxes of the logistic of the point's least
  face distance) and from the two inclusions one term; the result is the mean of all terms, clamped at zero.

  The kernel walks a grid of 8 × 8 points over blocks of 64 pairs and 256 points and keeps its one-entry result in the
  staging buffer: zero at the first point, plus each point's block sum, divided and clamped at the last. The
  reference forms the whole `[512, 2, 2048, 32]` array of face distances and reduces it. They agree because the kernel's
  64 block sums are the reference's one sum regrouped (addition of extended reals is commutative and associative),
  the unrolled least over 32 rows is the fold of `min`, and the operations are otherwise the same at every entry.

  One difference is outside that: the kernel's gather replaces a row whose index is outside the table by a fill value,
  where the reference's indexing clamps the index. The statement therefore carries the domain of the index input,
  `0 ≤ index < 50000`, under which no row is replaced and both programs read the same rows.
-/
import proofs.«406379_j52802327937557_3_alg».proof.Defs
import proofs.«406379_j52802327937557_3_alg».proof.Proof.Gen.Kernel.Frame
import proofs.«406379_j52802327937557_3_alg».proof.Proof.Gen.KernelIdeal.Value
import proofs.«406379_j52802327937557_3_alg».proof.Proof.Gen.Pre_finite_inputs
import proofs.«406379_j52802327937557_3_alg».proof.Proof.Gen.ReferenceIdeal.Run
import proofs.«406379_j52802327937557_3_alg».proof.Proof.Fold
import proofs.«406379_j52802327937557_3_alg».proof.Proof.KernelArrays
import proofs.«406379_j52802327937557_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- The two programs hand the same start indices to the same gather of the same table: the first classes' rows … -/
theorem embC_eq (W : FVec Ideal Cert.KernelIdeal.S50000x128 .f32) (nf : IVec Cert.KernelIdeal.S512x2 32) :
    Cert.KernelIdeal.Arrays.embC W nf = Cert.ReferenceIdeal.RefValue.embC W nf := rfl

/-- … and the second classes' rows. -/
theorem embD_eq (W : FVec Ideal Cert.KernelIdeal.S50000x128 .f32) (nf : IVec Cert.KernelIdeal.S512x2 32) :
    Cert.KernelIdeal.Arrays.embD W nf = Cert.ReferenceIdeal.RefValue.embD W nf := rfl

/-- The one-entry result arrays have one index. -/
theorem idx_one (i : (⟨2, ![1, 1]⟩ : Shape).Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- Under the precondition both programs end at the loss of the gathered rows and the points. -/
theorem algebraic_KernelIdeal_ReferenceIdeal : algebraic_KernelIdeal_ReferenceIdeal := by
  intro m ρ m' ρ' hpre hagree
  refine ⟨fun c => Cert.KernelIdeal.Value.G5 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq]
  funext i
  rw [idx_one i]
  refine (Cert.ReferenceIdeal.RefValue.result_apply _ _ _).trans (Eq.symm ?_)
  rw [(hagree c).1, (hagree c).2.1, (hagree c).2.2, ← embC_eq, ← embD_eq]
  exact Cert.KernelIdeal.Fold.result_apply m (Cert.KernelIdeal.Arrays.rowC m c) (Cert.KernelIdeal.Arrays.rowD m c)
    (fun p d => m ((c : Thread Cert.KernelIdeal.nD Cert.KernelIdeal.τ).loc Cert.KernelIdeal.main_arg1) (ix2 p d)) c
    (Cert.KernelIdeal.Arrays.lo1_apply m hpre c) (Cert.KernelIdeal.Arrays.hi1_apply m hpre c)
    (Cert.KernelIdeal.Arrays.lo2_apply m hpre c) (Cert.KernelIdeal.Arrays.hi2_apply m hpre c)
    (Cert.KernelIdeal.Arrays.pts_apply m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
